-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S4000000 : Shape := ⟨1, ![4000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S200000x64 .f32) (main_arg1 : FVec F S100000x64 .f32) (main_arg2 : IVec S4000000 32) (main_arg3 : IVec S4000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S200000x64 : Shape := ⟨2, ![200000, 64]⟩
abbrev S100000x64 : Shape := ⟨2, ![100000, 64]⟩
abbrev S4000000 : Shape := ⟨1, ![4000000]⟩
abbrev S300000x64 : Shape := ⟨2, ![300000, 64]⟩
abbrev S_ : Shape := ⟨0, ![]⟩
abbrev S300000 : Shape := ⟨1, ![300000]⟩
abbrev S4000000x1 : Shape := ⟨2, ![4000000, 1]⟩
abbrev S4014080 : Shape := ⟨1, ![4014080]⟩
abbrev S4014080x1 : Shape := ⟨2, ![4014080, 1]⟩
abbrev S4014080x64 : Shape := ⟨2, ![4014080, 64]⟩
abbrev S16384x64 : Shape := ⟨2, ![16384, 64]⟩
abbrev S16384x1 : Shape := ⟨2, ![16384, 1]⟩
abbrev S20000x64 : Shape := ⟨2, ![20000, 64]⟩

abbrev nBuf : Space → Nat
  | .hbm => 92
  | .vmem => 40
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S4000000, .i32⟩
  | .hbm, ⟨3, _⟩ => ⟨S4000000, .i32⟩
  | .hbm, ⟨4, _⟩ => ⟨S300000x64, .f32⟩
  | .hbm, ⟨5, _⟩ => ⟨S_, .f32⟩
  | .hbm, ⟨6, _⟩ => ⟨S4000000, .f32⟩
  | .hbm, ⟨7, _⟩ => ⟨S_, .f32⟩
  | .hbm, ⟨8, _⟩ => ⟨S300000, .f32⟩
  | .hbm, ⟨9, _⟩ => ⟨S4000000x1, .i32⟩
  | .hbm, ⟨10, _⟩ => ⟨S300000, .f32⟩
  | .hbm, ⟨11, _⟩ => ⟨S_, .f32⟩
  | .hbm, ⟨12, _⟩ => ⟨S300000, .f32⟩
  | .hbm, ⟨13, _⟩ => ⟨S300000, .f32⟩
  | .hbm, ⟨14, _⟩ => ⟨S300000, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S4000000, .f32⟩
  | .hbm, ⟨34, _⟩ => ⟨S4000000x1, .f32⟩
  | .hbm, ⟨35, _⟩ => ⟨S_, .i32⟩
  | .hbm, ⟨36, _⟩ => ⟨S_, .i32⟩
  | .hbm, ⟨37, _⟩ => ⟨S4014080, .i32⟩
  | .hbm, ⟨38, _⟩ => ⟨S_, .i32⟩
  | .hbm, ⟨39, _⟩ => ⟨S_, .i32⟩
  | .hbm, ⟨40, _⟩ => ⟨S4014080, .i32⟩
  | .hbm, ⟨41, _⟩ => ⟨S_, .i32⟩
  | .hbm, ⟨42, _⟩ => ⟨S_, .f32⟩
  | .hbm, ⟨43, _⟩ => ⟨S4014080x1, .f32⟩
  | .hbm, ⟨44, _⟩ => ⟨S_, .i32⟩
  | .hbm, ⟨45, _⟩ => ⟨S4014080, .i32⟩
  | .hbm, ⟨46, _⟩ => ⟨S4014080, .i1⟩
  | .hbm, ⟨47, _⟩ => ⟨S_, .i32⟩
  | .hbm, ⟨48, _⟩ => ⟨S4014080, .i32⟩
  | .hbm, ⟨49, _⟩ => ⟨S4014080, .i32⟩
  | .hbm, ⟨50, _⟩ => ⟨S4014080, .i32⟩
  | .hbm, ⟨51, _⟩ => ⟨S4014080x1, .i32⟩
  | .hbm, ⟨52, _⟩ => ⟨S4014080x64, .f32⟩
  | .hbm, ⟨53, _⟩ => ⟨S4014080x64, .f32⟩
  | .hbm, ⟨54, _⟩ => ⟨S_, .f32⟩
  | .hbm, ⟨55, _⟩ => ⟨S300000x64, .f32⟩
  | .hbm, ⟨56, _⟩ => ⟨S4014080x1, .i32⟩
  | .hbm, ⟨57, _⟩ => ⟨S300000x64, .f32⟩
  | .hbm, ⟨58, _⟩ => ⟨S300000x64, .f32⟩
  | .hbm, ⟨59, _⟩ => ⟨S_, .i32⟩
  | .hbm, ⟨60, _⟩ => ⟨S4014080, .i32⟩
  | .hbm, ⟨61, _⟩ => ⟨S4014080, .i1⟩
  | .hbm, ⟨62, _⟩ => ⟨S_, .i32⟩
  | .hbm, ⟨63, _⟩ => ⟨S4014080, .i32⟩
  | .hbm, ⟨64, _⟩ => ⟨S4014080, .i32⟩
  | .hbm, ⟨65, _⟩ => ⟨S4014080, .i32⟩
  | .hbm, ⟨66, _⟩ => ⟨S4014080x1, .i32⟩
  | .hbm, ⟨67, _⟩ => ⟨S4014080x64, .f32⟩
  | .hbm, ⟨68, _⟩ => ⟨S4014080x64, .f32⟩
  | .hbm, ⟨69, _⟩ => ⟨S_, .f32⟩
  | .hbm, ⟨70, _⟩ => ⟨S300000x64, .f32⟩
  | .hbm, ⟨71, _⟩ => ⟨S4014080x1, .i32⟩
  | .hbm, ⟨72, _⟩ => ⟨S300000x64, .f32⟩
  | .hbm, ⟨73, _⟩ => ⟨S300000x64, .f32⟩
  | .hbm, ⟨74, _⟩ => ⟨S_, .i32⟩
  | .hbm, ⟨75, _⟩ => ⟨S4014080, .i32⟩
  | .hbm, ⟨76, _⟩ => ⟨S4014080, .i1⟩
  | .hbm, ⟨77, _⟩ => ⟨S_, .i32⟩
  | .hbm, ⟨78, _⟩ => ⟨S4014080, .i32⟩
  | .hbm, ⟨79, _⟩ => ⟨S4014080, .i32⟩
  | .hbm, ⟨80, _⟩ => ⟨S4014080, .i32⟩
  | .hbm, ⟨81, _⟩ => ⟨S4014080x1, .i32⟩
  | .hbm, ⟨82, _⟩ => ⟨S4014080x64, .f32⟩
  | .hbm, ⟨83, _⟩ => ⟨S4014080x64, .f32⟩
  | .hbm, ⟨84, _⟩ => ⟨S_, .f32⟩
  | .hbm, ⟨85, _⟩ => ⟨S300000x64, .f32⟩
  | .hbm, ⟨86, _⟩ => ⟨S4014080x1, .i32⟩
  | .hbm, ⟨87, _⟩ => ⟨S300000x64, .f32⟩
  | .hbm, ⟨88, _⟩ => ⟨S300000x64, .f32⟩
  | .hbm, ⟨89, _⟩ => ⟨S300000x64, .f32⟩
  | .hbm, ⟨90, _⟩ => ⟨S200000x64, .f32⟩
  | .hbm, ⟨91, _⟩ => ⟨S100000x64, .f32⟩
  | .local _ .vmem, ⟨0, _⟩ => ⟨S16384x64, .f32⟩
  | .local _ .vmem, ⟨1, _⟩ => ⟨S16384x64, .f32⟩
  | .local _ .vmem, ⟨2, _⟩ => ⟨S16384x1, .f32⟩
  | .local _ .vmem, ⟨3, _⟩ => ⟨S16384x1, .f32⟩
  | .local _ .vmem, ⟨4, _⟩ => ⟨S16384x64, .f32⟩
  | .local _ .vmem, ⟨5, _⟩ => ⟨S16384x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S16384x64, .f32⟩
  | .local _ .vmem, ⟨13, _⟩ => ⟨S16384x64, .f32⟩
  | .local _ .vmem, ⟨14, _⟩ => ⟨S16384x1, .f32⟩
  | .local _ .vmem, ⟨15, _⟩ => ⟨S16384x1, .f32⟩
  | .local _ .vmem, ⟨16, _⟩ => ⟨S16384x64, .f32⟩
  | .local _ .vmem, ⟨17, _⟩ => ⟨S16384x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S20000x64, .f32⟩
  | .local _ .vmem, ⟨22, _⟩ => ⟨S20000x64, .f32⟩
  | .local _ .vmem, ⟨23, _⟩ => ⟨S20000x64, .f32⟩
  | .local _ .vmem, ⟨24, _⟩ => ⟨S16384x64, .f32⟩
  | .local _ .vmem, ⟨25, _⟩ => ⟨S16384x64, .f32⟩
  | .local _ .vmem, ⟨26, _⟩ => ⟨S16384x1, .f32⟩
  | .local _ .vmem, ⟨27, _⟩ => ⟨S16384x1, .f32⟩
  | .local _ .vmem, ⟨28, _⟩ => ⟨S16384x64, .f32⟩
  | .local _ .vmem, ⟨29, _⟩ => ⟨S16384x64, .f32⟩
  | .local _ .vmem, ⟨30, _⟩ => ⟨S20000x64, .f32⟩
  | .local _ .vmem, ⟨31, _⟩ => ⟨S20000x64, .f32⟩
  | .local _ .vmem, ⟨32, _⟩ => ⟨S20000x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | .local _ .vmem, ⟨36, _⟩ => ⟨S20000x64, .f32⟩
  | .local _ .vmem, ⟨37, _⟩ => ⟨S20000x64, .f32⟩
  | .local _ .vmem, ⟨38, _⟩ => ⟨S20000x64, .f32⟩
  | .local _ .vmem, ⟨39, _⟩ => ⟨S20000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_call0_v0 : Ref sig .tc := ⟨.hbm, 36, rfl⟩
abbrev main_v24 : Ref sig .tc := ⟨.hbm, 37, rfl⟩
abbrev main_c_6 : Ref sig .tc := ⟨.hbm, 38, rfl⟩
abbrev main_call1_v0 : Ref sig .tc := ⟨.hbm, 39, rfl⟩
abbrev main_v25 : Ref sig .tc := ⟨.hbm, 40, rfl⟩
abbrev main_c_7 : Ref sig .tc := ⟨.hbm, 41, rfl⟩
abbrev main_call2_v0 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_c_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![245], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![245], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16384x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16384x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16384x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S20000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S20000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S20000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  concatenates_S200000x64_S100000x64_S300000x64_d0 : Shape.Concatenates [S200000x64, S100000x64] S300000x64 0
  bcast_S_S4000000 : S_.BroadcastsInDim S4000000 (![] : Fin 0 → Fin S4000000.rank)
  bcast_S_S300000 : S_.BroadcastsInDim S300000 (![] : Fin 0 → Fin S300000.rank)
  bcast_S4000000_S4000000x1_0 : S4000000.BroadcastsInDim S4000000x1 (![0] : Fin 1 → Fin S4000000x1.rank)
  pads_S4000000_S4014080_0140800 : S4000000.Pads (![0] : Fin 1 → Nat) ![14080] ![0] S4014080
  h_S_ : 0 < S_.numel
  pads_S4000000x1_S4014080x1_0140800_000 : S4000000x1.Pads (![0, 0] : Fin 2 → Nat) ![14080, 0] ![0, 0] S4014080x1
  bcast_S_S4014080 : S_.BroadcastsInDim S4014080 (![] : Fin 0 → Fin S4014080.rank)
  bcast_S4014080_S4014080x1_0 : S4014080.BroadcastsInDim S4014080x1 (![0] : Fin 1 → Fin S4014080x1.rank)
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  broadcasts_S16384x1_S16384x64 : S16384x1.Broadcasts S16384x64
  bcast_S_S300000x64 : S_.BroadcastsInDim S300000x64 (![] : Fin 0 → Fin S300000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  slices_S300000x64_S200000x64_0_0 : S300000x64.Slices ![0, 0] S200000x64
  slices_S300000x64_S100000x64_200000_0 : S300000x64.Slices ![200000, 0] S100000x64
  scatter_S300000_S4000000x1_S4000000_n_0_0_1_wf : ScatterDims.WF S300000 S4000000x1 S4000000 [] [0] [0] 1
  gather_S300000_S4000000x1_S4000000_n_0_n_n_0_1_1_wf : GatherDims.WF S300000 S4000000x1 S4000000 [] [0] [] [0] [] 1 ![1]
  gather_S300000x64_S4014080x1_S4014080x64_1_0_n_n_0_1_164_wf : GatherDims.WF S300000x64 S4014080x1 S4014080x64 [1] [0] [] [0] [] 1 ![1, 64]
  scatter_S300000x64_S4014080x1_S4014080x64_1_0_0_1_wf : ScatterDims.WF S300000x64 S4014080x1 S4014080x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S4014080x64.size a
  hwx0_0 : ∀ i : grid0.Coords, EltTy.bits .f32 = 32 ∨ (Rect.block (s := S4014080x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S4014080x1.size a
  hwx0_1 : ∀ i : grid0.Coords, EltTy.bits .f32 = 32 ∨ (Rect.block (s := S4014080x1) S16384x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S4014080x64.size a
  hwx0_2 : ∀ i : grid0.Coords, EltTy.bits .f32 = 32 ∨ (Rect.block (s := S4014080x64) S16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S300000x64.size a
  hwx1_0 : ∀ i : grid1.Coords, EltTy.bits .f32 = 32 ∨ (Rect.block (s := S300000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S300000x64.size a
  hwx1_1 : ∀ i : grid1.Coords, EltTy.bits .f32 = 32 ∨ (Rect.block (s := S300000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S300000x64.size a
  hwx1_2 : ∀ i : grid1.Coords, EltTy.bits .f32 = 32 ∨ (Rect.block (s := S300000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x64.size a ≤ S4014080x64.size a
  hwx2_0 : ∀ i : grid2.Coords, EltTy.bits .f32 = 32 ∨ (Rect.block (s := S4014080x64) S16384x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x1.size a ≤ S4014080x1.size a
  hwx2_1 : ∀ i : grid2.Coords, EltTy.bits .f32 = 32 ∨ (Rect.block (s := S4014080x1) S16384x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x64.size a ≤ S4014080x64.size a
  hwx2_2 : ∀ i : grid2.Coords, EltTy.bits .f32 = 32 ∨ (Rect.block (s := S4014080x64) S16384x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S300000x64.size a
  hwx3_0 : ∀ i : grid3.Coords, EltTy.bits .f32 = 32 ∨ (Rect.block (s := S300000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S300000x64.size a
  hwx3_1 : ∀ i : grid3.Coords, EltTy.bits .f32 = 32 ∨ (Rect.block (s := S300000x64) S20000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S300000x64.size a
  hwx3_2 : ∀ i : grid3.Coords, EltTy.bits .f32 = 32 ∨ (Rect.block (s := S300000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16384x64.size a ≤ S4014080x64.size a
  hwx4_0 : ∀ i : grid4.Coords, EltTy.bits .f32 = 32 ∨ (Rect.block (s := S4014080x64) S16384x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16384x1.size a ≤ S4014080x1.size a
  hwx4_1 : ∀ i : grid4.Coords, EltTy.bits .f32 = 32 ∨ (Rect.block (s := S4014080x1) S16384x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16384x64.size a ≤ S4014080x64.size a
  hwx4_2 : ∀ i : grid4.Coords, EltTy.bits .f32 = 32 ∨ (Rect.block (s := S4014080x64) S16384x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S300000x64.size a
  hwx5_0 : ∀ i : grid5.Coords, EltTy.bits .f32 = 32 ∨ (Rect.block (s := S300000x64) S20000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S20000x64.size a ≤ S300000x64.size a
  hwx5_1 : ∀ i : grid5.Coords, EltTy.bits .f32 = 32 ∨ (Rect.block (s := S300000x64) S20000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x64.size a ≤ S300000x64.size a
  hwx5_2 : ∀ i : grid5.Coords, EltTy.bits .f32 = 32 ∨ (Rect.block (s := S300000x64) S20000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S300000x64.size a
  hwx6_0 : ∀ i : grid6.Coords, EltTy.bits .f32 = 32 ∨ (Rect.block (s := S300000x64) S20000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S20000x64.size a ≤ S300000x64.size a
  hwx6_1 : ∀ i : grid6.Coords, EltTy.bits .f32 = 32 ∨ (Rect.block (s := S300000x64) S20000x64.size (cc6_transform_1 i) (hinb6_1 i)).WholeWords (EltTy.packing .f32)

variable [Facts₀]

def scatter_S300000_S4000000x1_S4000000_n_0_0_1 : ScatterDims S300000 S4000000x1 S4000000 where
  updateWindowDims := []
  insertedWindowDims := [0]
  scatterDimsToOperandDims := [0]
  indexVectorDim := 1
  wf := scatter_S300000_S4000000x1_S4000000_n_0_0_1_wf
def gather_S300000_S4000000x1_S4000000_n_0_n_n_0_1_1 : GatherDims S300000 S4000000x1 S4000000 where
  offsetDims := []
  collapsedSliceDims := [0]
  operandBatchingDims := []
  startIndicesBatchingDims := []
  startIndexMap := [0]
  indexVectorDim := 1
  sliceSizes := ![1]
  wf := gather_S300000_S4000000x1_S4000000_n_0_n_n_0_1_1_wf
def gather_S300000x64_S4014080x1_S4014080x64_1_0_n_n_0_1_164 : GatherDims S300000x64 S4014080x1 S4014080x64 where
  offsetDims := [1]
  collapsedSliceDims := [0]
  operandBatchingDims := []
  startIndicesBatchingDims := []
  startIndexMap := [0]
  indexVectorDim := 1
  sliceSizes := ![1, 64]
  wf := gather_S300000x64_S4014080x1_S4014080x64_1_0_n_n_0_1_164_wf
def scatter_S300000x64_S4014080x1_S4014080x64_1_0_0_1 : ScatterDims S300000x64 S4014080x1 S4014080x64 where
  updateWindowDims := [1]
  insertedWindowDims := [0]
  scatterDimsToOperandDims := [0]
  indexVectorDim := 1
  wf := scatter_S300000x64_S4014080x1_S4014080x64_1_0_0_1_wf

abbrev win0_0 : Pipeline.Window sig grid0 :=
  Pipeline.Window.ofSpec (Memref.whole main_v33) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S16384x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S16384x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S16384x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S16384x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S16384x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S20000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v62) S20000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S20000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S4000000 : Shape := ⟨1, ![4000000]⟩
abbrev S300000x64 : Shape := ⟨2, ![300000, 64]⟩
abbrev S_ : Shape := ⟨0, ![]⟩
abbrev S300000 : Shape := ⟨1, ![300000]⟩
abbrev S4000000x1 : Shape := ⟨2, ![4000000, 1]⟩
abbrev S4000000x64 : Shape := ⟨2, ![4000000, 64]⟩

abbrev nBuf : Space → Nat
  | .hbm => 88
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S4000000, .i32⟩
  | .hbm, ⟨3, _⟩ => ⟨S4000000, .i32⟩
  | .hbm, ⟨4, _⟩ => ⟨S300000x64, .f32⟩
  | .hbm, ⟨5, _⟩ => ⟨S_, .f32⟩
  | .hbm, ⟨6, _⟩ => ⟨S4000000, .f32⟩
  | .hbm, ⟨7, _⟩ => ⟨S_, .f32⟩
  | .hbm, ⟨8, _⟩ => ⟨S300000, .f32⟩
  | .hbm, ⟨9, _⟩ => ⟨S4000000x1, .i32⟩
  | .hbm, ⟨10, _⟩ => ⟨S300000, .f32⟩
  | .hbm, ⟨11, _⟩ => ⟨S_, .f32⟩
  | .hbm, ⟨12, _⟩ => ⟨S300000, .f32⟩
  | .hbm, ⟨13, _⟩ => ⟨S300000, .f32⟩
  | .hbm, ⟨14, _⟩ => ⟨S300000, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S4000000, .f32⟩
  | .hbm, ⟨34, _⟩ => ⟨S4000000x1, .f32⟩
  | .hbm, ⟨35, _⟩ => ⟨S_, .i32⟩
  | .hbm, ⟨36, _⟩ => ⟨S4000000, .i32⟩
  | .hbm, ⟨37, _⟩ => ⟨S4000000, .i1⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S4000000, .i32⟩
  | .hbm, ⟨42, _⟩ => ⟨S4000000x1, .i32⟩
  | .hbm, ⟨43, _⟩ => ⟨S4000000x64, .f32⟩
  | .hbm, ⟨44, _⟩ => ⟨S4000000x64, .f32⟩
  | .hbm, ⟨45, _⟩ => ⟨S4000000x64, .f32⟩
  | .hbm, ⟨46, _⟩ => ⟨S_, .f32⟩
  | .hbm, ⟨47, _⟩ => ⟨S300000x64, .f32⟩
  | .hbm, ⟨48, _⟩ => ⟨S4000000x1, .i32⟩
  | .hbm, ⟨49, _⟩ => ⟨S300000x64, .f32⟩
  | .hbm, ⟨50, _⟩ => ⟨S300000x64, .f32⟩
  | .hbm, ⟨51, _⟩ => ⟨S_, .i32⟩
  | .hbm, ⟨52, _⟩ => ⟨S4000000, .i32⟩
  | .hbm, ⟨53, _⟩ => ⟨S4000000, .i1⟩
  | .hbm, ⟨54, _⟩ => ⟨S_, .i32⟩
  | .hbm, ⟨55, _⟩ => ⟨S4000000, .i32⟩
  | .hbm, ⟨56, _⟩ => ⟨S4000000, .i32⟩
  | .hbm, ⟨57, _⟩ => ⟨S4000000, .i32⟩
  | .hbm, ⟨58, _⟩ => ⟨S4000000x1, .i32⟩
  | .hbm, ⟨59, _⟩ => ⟨S4000000x64, .f32⟩
  | .hbm, ⟨60, _⟩ => ⟨S4000000x64, .f32⟩
  | .hbm, ⟨61, _⟩ => ⟨S4000000x64, .f32⟩
  | .hbm, ⟨62, _⟩ => ⟨S_, .f32⟩
  | .hbm, ⟨63, _⟩ => ⟨S300000x64, .f32⟩
  | .hbm, ⟨64, _⟩ => ⟨S4000000x1, .i32⟩
  | .hbm, ⟨65, _⟩ => ⟨S300000x64, .f32⟩
  | .hbm, ⟨66, _⟩ => ⟨S300000x64, .f32⟩
  | .hbm, ⟨67, _⟩ => ⟨S_, .i32⟩
  | .hbm, ⟨68, _⟩ => ⟨S4000000, .i32⟩
  | .hbm, ⟨69, _⟩ => ⟨S4000000, .i1⟩
  | .hbm, ⟨70, _⟩ => ⟨S_, .i32⟩
  | .hbm, ⟨71, _⟩ => ⟨S4000000, .i32⟩
  | .hbm, ⟨72, _⟩ => ⟨S4000000, .i32⟩
  | .hbm, ⟨73, _⟩ => ⟨S4000000, .i32⟩
  | .hbm, ⟨74, _⟩ => ⟨S4000000x1, .i32⟩
  | .hbm, ⟨75, _⟩ => ⟨S4000000x64, .f32⟩
  | .hbm, ⟨76, _⟩ => ⟨S4000000x64, .f32⟩
  | .hbm, ⟨77, _⟩ => ⟨S4000000x64, .f32⟩
  | .hbm, ⟨78, _⟩ => ⟨S_, .f32⟩
  | .hbm, ⟨79, _⟩ => ⟨S300000x64, .f32⟩
  | .hbm, ⟨80, _⟩ => ⟨S4000000x1, .i32⟩
  | .hbm, ⟨81, _⟩ => ⟨S300000x64, .f32⟩
  | .hbm, ⟨82, _⟩ => ⟨S300000x64, .f32⟩
  | .hbm, ⟨83, _⟩ => ⟨S_, .f32⟩
  | .hbm, ⟨84, _⟩ => ⟨S300000x64, .f32⟩
  | .hbm, ⟨85, _⟩ => ⟨S300000x64, .f32⟩
  | .hbm, ⟨86, _⟩ => ⟨S200000x64, .f32⟩
  | .hbm, ⟨87, _⟩ => ⟨S100000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  concatenates_S200000x64_S100000x64_S300000x64_d0 : Shape.Concatenates [S200000x64, S100000x64] S300000x64 0
  bcast_S_S4000000 : S_.BroadcastsInDim S4000000 (![] : Fin 0 → Fin S4000000.rank)
  bcast_S_S300000 : S_.BroadcastsInDim S300000 (![] : Fin 0 → Fin S300000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  slices_S300000x64_S200000x64_0_0 : S300000x64.Slices ![0, 0] S200000x64
  slices_S300000x64_S100000x64_200000_0 : S300000x64.Slices ![200000, 0] S100000x64
  scatter_S300000_S4000000x1_S4000000_n_0_0_1_wf : ScatterDims.WF S300000 S4000000x1 S4000000 [] [0] [0] 1
  gather_S300000_S4000000x1_S4000000_n_0_n_n_0_1_1_wf : GatherDims.WF S300000 S4000000x1 S4000000 [] [0] [] [0] [] 1 ![1]
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1

variable [Facts₀]

def scatter_S300000_S4000000x1_S4000000_n_0_0_1 : ScatterDims S300000 S4000000x1 S4000000 where
  updateWindowDims := []
  insertedWindowDims := [0]
  scatterDimsToOperandDims := [0]
  indexVectorDim := 1
  wf := scatter_S300000_S4000000x1_S4000000_n_0_0_1_wf
def gather_S300000_S4000000x1_S4000000_n_0_n_n_0_1_1 : GatherDims S300000 S4000000x1 S4000000 where
  offsetDims := []
  collapsedSliceDims := [0]
  operandBatchingDims := []
  startIndicesBatchingDims := []
  startIndexMap := [0]
  indexVectorDim := 1
  sliceSizes := ![1]
  wf := gather_S300000_S4000000x1_S4000000_n_0_n_n_0_1_1_wf
def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf

class Facts : Prop extends Facts₀ where

variable [Facts]
-- ==== Proof.RegionSpec.lean ====
/-
  What each of the three kernels leaves in its output array, as a function of its input arrays, entry by entry:
  a row-wise scaling (every entry of a row times that row's one weight), an entrywise sum, and an entrywise
  product with the constant one quarter (kept as its binary word).
-/
import Idealize.ShloMosaic.PureOps.Ideal
import Idealize.ShloMosaic.Lib.ValueIdx

noncomputable section

namespace Cert.Lgcn

open Idealize.ShloMosaic Idealize.ShloMosaic.ValueIdx

/-- Entry `(e, k)` of the messages: entry `(e, k)` of the gathered rows times the weight of edge `e`. -/
def rowScale (g : (⟨2, ![4014080, 64]⟩ : Shape).Idx → EReal) (w : (⟨2, ![4014080, 1]⟩ : Shape).Idx → EReal) :
    (⟨2, ![4014080, 64]⟩ : Shape).Idx → EReal :=
  fun i => g i * w (ix2 (i 0) (0 : Fin 1))

/-- The entrywise sum of two node tables. -/
def addArr (a b : (⟨2, ![300000, 64]⟩ : Shape).Idx → EReal) : (⟨2, ![300000, 64]⟩ : Shape).Idx → EReal :=
  fun i => a i + b i

/-- A node table times the constant whose binary word is that of one quarter. -/
def quarter (a : (⟨2, ![300000, 64]⟩ : Shape).Idx → EReal) : (⟨2, ![300000, 64]⟩ : Shape).Idx → EReal :=
  fun i => a i * Scalar.ofBits (F := Ideal) .f32 0x3E800000#32

end Cert.Lgcn

end
-- ==== Proof.RegionMul.lean ====
import proofs.«113189_j89670327206250_1_alg».proof.Proof.Gen.KernelIdeal.Frame
import proofs.«113189_j89670327206250_1_alg».proof.Proof.RegionSpec
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-!
  The three row-scaling regions. Each runs 245 points; point `t` stages rows `16384 t … 16384 t + 16383` of the
  gathered rows and of the weights, multiplies every entry of a row by that row's one weight, and writes the block
  back to the same rows of the output. The 245 blocks fill the 4014080 rows, so the output array ends as the
  row-scaled input array, whole.
-/

/-- The zero offset of a whole-block access, as a constant function. -/
theorem mulZeroOffset : (![0, 0] : Fin 2 → Nat) = fun _ => 0 := funext fun a => by fin_cases a <;> rfl

/-- The edge weights as the regions find them, one per row. -/
abbrev mulWeights (c : Dev nD) : Vec Ideal S4014080x1 .f32 := V c main_v26

/-! ## Region 0: every row of a block of the gathered rows times that row's weight -/

/-- The gathered rows as region 0 finds them. -/
abbrev mulRows0 (c : Dev nD) : Vec Ideal S4014080x64 .f32 := V c main_v33

/-- Entry `(e, k)` of the block the body stores is entry `(e, k)` of the rows' block times entry `(e, 0)` of the
    weights' block. -/
theorem mulPay0_apply (x0 : Vec Ideal S16384x64 .f32) (x1 : Vec Ideal S16384x1 .f32) (j : S16384x64.Idx) :
    k0_pay1 x0 x1 j = x0 j * x1 (ix2 (j 0) (0 : Fin 1)) := by
  show mulf (F := Ideal) (s := S16384x64) (φ := .f32) (shapeCast S16384x64 x0 shapeCasts_S16384x64_S16384x64)
      (broadcastTo S16384x64 (shapeCast S16384x1 x1 shapeCasts_S16384x1_S16384x1) broadcasts_S16384x1_S16384x64) j = _
  rw [shapeCast_self, shapeCast_self, mulf_apply]
  congr 1
  refine broadcastTo_apply x1 broadcasts_S16384x1_S16384x64 j (ix2 (j 0) (0 : Fin 1)) (fun a => ?_)
  match a with
  | ⟨0, _⟩ => rfl
  | ⟨1, _⟩ => rfl

/-- The three index maps over the grid: point `t` takes block row `t`, block column 0, of each array. -/
theorem mulIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row-scaled array. -/
theorem mulFlushed0 (c : Dev nD) (t : Fin cfg0.N) :
    (dat0 (F := Ideal) V c).flushed 2 t
      = ((cfg0.win 2).blk t).view.read (Elt Ideal) (Cert.Lgcn.rowScale (V c main_v33) (V c main_v26)) := by
  show (cfg0.win 2).cut (grid0.coords t) ((dat0 (F := Ideal) V c).after 2 t) = _
  rw [after0_2]
  unfold out0_2
  rw [View.canon_unit_zero mulZeroOffset]
  simp only [View.ld_unit_zero (S := S16384x64) mulZeroOffset, View.ld_unit_zero (S := S16384x1) mulZeroOffset]
  obtain ⟨e0, e1, e2, e3, e4, e5⟩ := mulIdx0 t
  funext j
  refine (mulPay0_apply _ _ j).trans ?_
  show mulRows0 V c (((cfg0.win 0).blk t).view.emb j) * mulWeights V c (((cfg0.win 1).blk t).view.emb (ix2 (j 0) (0 : Fin 1)))
    = mulRows0 V c (((cfg0.win 2).blk t).view.emb j) * mulWeights V c (ix2 ((((cfg0.win 2).blk t).view.emb j) 0) (0 : Fin 1))
  have h0 : ((cfg0.win 0).blk t).view.emb j = ((cfg0.win 2).blk t).view.emb j := by
    funext a; apply Fin.ext
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 16384 + 1 * (j 0).val = win0_2.index t (0 : Fin 2) * 16384 + 1 * (j 0).val; omega
    | ⟨1, _⟩ => show win0_1.index t (1 : Fin 2) * 1 + 1 * 0 = 0; omega
  rw [h0, h1]
  rfl

/-- An index of the array is in point `t`'s block iff each coordinate is in the block's range on its axis. -/
theorem mulMemBlk0 (t : Fin cfg0.N) (i : S4014080x64.Idx) :
    i ∈ ((cfg0.win 2).blk t).view.set ↔ ∀ a : Fin 2, win0_2.index t a * S16384x64.size a ≤ (i a).val ∧ (i a).val < win0_2.index t a * S16384x64.size a + S16384x64.size a := by
  show i ∈ ((View.whole main_v34).slice (win0_2.rect t)).set ↔ _
  rw [View.set_slice_whole, Rect.mem_set_unit]
  exact Iff.rfl

/-- The 245 blocks of 16384 rows fill the 4014080 rows: row `r` is in the block of point `r / 16384`. -/
theorem mulCover0 (i : S4014080x64.Idx) :
    ∃ t : Fin cfg0.N, (cfg0.win 2).flush t = true ∧ i ∈ ((cfg0.win 2).blk t).view.set := by
  have hi0 : (i 0).val < 4014080 := (i 0).isLt
  have hi1 : (i 1).val < 64 := (i 1).isLt
  have ht : (i 0).val / 16384 < 245 := by omega
  refine ⟨⟨(i 0).val / 16384, ht⟩, flush0_2 _, ?_⟩
  obtain ⟨e0, e1, e2, e3, e4, e5⟩ := mulIdx0 ⟨(i 0).val / 16384, ht⟩
  rw [mulMemBlk0]
  intro a
  match a with
  | ⟨0, _⟩ =>
    show win0_2.index ⟨(i 0).val / 16384, ht⟩ (0 : Fin 2) * 16384 ≤ (i 0).val ∧ (i 0).val < win0_2.index ⟨(i 0).val / 16384, ht⟩ (0 : Fin 2) * 16384 + 16384
    rw [e4]; show (i 0).val / 16384 * 16384 ≤ (i 0).val ∧ (i 0).val < (i 0).val / 16384 * 16384 + 16384; omega
  | ⟨1, _⟩ =>
    show win0_2.index ⟨(i 0).val / 16384, ht⟩ (1 : Fin 2) * 64 ≤ (i 1).val ∧ (i 1).val < win0_2.index ⟨(i 0).val / 16384, ht⟩ (1 : Fin 2) * 64 + 64
    rw [e5]; omega

theorem arr0 (c : Dev nD) : (dat0 (F := Ideal) V c).arrAt 2 cfg0.N = Cert.Lgcn.rowScale (V c main_v33) (V c main_v26) :=
  (dat0 (F := Ideal) V c).arrAt_eq_of_cover 2 (Cert.Lgcn.rowScale (V c main_v33) (V c main_v26))
    (fun t _ => mulFlushed0 V c t) (mulCover0)

/-! ## Region 2: the same scaling of the second round's gathered rows -/

/-- The gathered rows as region 2 finds them. -/
abbrev mulRows2 (c : Dev nD) : Vec Ideal S4014080x64 .f32 := V c main_v45

/-- Entry `(e, k)` of the block the body stores is entry `(e, k)` of the rows' block times entry `(e, 0)` of the
    weights' block. -/
theorem mulPay2_apply (x0 : Vec Ideal S16384x64 .f32) (x1 : Vec Ideal S16384x1 .f32) (j : S16384x64.Idx) :
    k2_pay1 x0 x1 j = x0 j * x1 (ix2 (j 0) (0 : Fin 1)) := by
  show mulf (F := Ideal) (s := S16384x64) (φ := .f32) (shapeCast S16384x64 x0 shapeCasts_S16384x64_S16384x64)
      (broadcastTo S16384x64 (shapeCast S16384x1 x1 shapeCasts_S16384x1_S16384x1) broadcasts_S16384x1_S16384x64) j = _
  rw [shapeCast_self, shapeCast_self, mulf_apply]
  congr 1
  refine broadcastTo_apply x1 broadcasts_S16384x1_S16384x64 j (ix2 (j 0) (0 : Fin 1)) (fun a => ?_)
  match a with
  | ⟨0, _⟩ => rfl
  | ⟨1, _⟩ => rfl

/-- The three index maps over the grid: point `t` takes block row `t`, block column 0, of each array. -/
theorem mulIdx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-scaled array. -/
theorem mulFlushed2 (c : Dev nD) (t : Fin cfg2.N) :
    (dat2 (F := Ideal) V c).flushed 2 t
      = ((cfg2.win 2).blk t).view.read (Elt Ideal) (Cert.Lgcn.rowScale (V c main_v45) (V c main_v26)) := by
  show (cfg2.win 2).cut (grid2.coords t) ((dat2 (F := Ideal) V c).after 2 t) = _
  rw [after2_2]
  unfold out2_2
  rw [View.canon_unit_zero mulZeroOffset]
  simp only [View.ld_unit_zero (S := S16384x64) mulZeroOffset, View.ld_unit_zero (S := S16384x1) mulZeroOffset]
  obtain ⟨e0, e1, e2, e3, e4, e5⟩ := mulIdx2 t
  funext j
  refine (mulPay2_apply _ _ j).trans ?_
  show mulRows2 V c (((cfg2.win 0).blk t).view.emb j) * mulWeights V c (((cfg2.win 1).blk t).view.emb (ix2 (j 0) (0 : Fin 1)))
    = mulRows2 V c (((cfg2.win 2).blk t).view.emb j) * mulWeights V c (ix2 ((((cfg2.win 2).blk t).view.emb j) 0) (0 : Fin 1))
  have h0 : ((cfg2.win 0).blk t).view.emb j = ((cfg2.win 2).blk t).view.emb j := by
    funext a; apply Fin.ext
    match a with
    | ⟨0, _⟩ => show win2_0.index t (0 : Fin 2) * 16384 + 1 * (j 0).val = win2_2.index t (0 : Fin 2) * 16384 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 16384 + 1 * (j 0).val = win2_2.index t (0 : Fin 2) * 16384 + 1 * (j 0).val; omega
    | ⟨1, _⟩ => show win2_1.index t (1 : Fin 2) * 1 + 1 * 0 = 0; omega
  rw [h0, h1]
  rfl

/-- An index of the array is in point `t`'s block iff each coordinate is in the block's range on its axis. -/
theorem mulMemBlk2 (t : Fin cfg2.N) (i : S4014080x64.Idx) :
    i ∈ ((cfg2.win 2).blk t).view.set ↔ ∀ a : Fin 2, win2_2.index t a * S16384x64.size a ≤ (i a).val ∧ (i a).val < win2_2.index t a * S16384x64.size a + S16384x64.size a := by
  show i ∈ ((View.whole main_v46).slice (win2_2.rect t)).set ↔ _
  rw [View.set_slice_whole, Rect.mem_set_unit]
  exact Iff.rfl

/-- The 245 blocks of 16384 rows fill the 4014080 rows: row `r` is in the block of point `r / 16384`. -/
theorem mulCover2 (i : S4014080x64.Idx) :
    ∃ t : Fin cfg2.N, (cfg2.win 2).flush t = true ∧ i ∈ ((cfg2.win 2).blk t).view.set := by
  have hi0 : (i 0).val < 4014080 := (i 0).isLt
  have hi1 : (i 1).val < 64 := (i 1).isLt
  have ht : (i 0).val / 16384 < 245 := by omega
  refine ⟨⟨(i 0).val / 16384, ht⟩, flush2_2 _, ?_⟩
  obtain ⟨e0, e1, e2, e3, e4, e5⟩ := mulIdx2 ⟨(i 0).val / 16384, ht⟩
  rw [mulMemBlk2]
  intro a
  match a with
  | ⟨0, _⟩ =>
    show win2_2.index ⟨(i 0).val / 16384, ht⟩ (0 : Fin 2) * 16384 ≤ (i 0).val ∧ (i 0).val < win2_2.index ⟨(i 0).val / 16384, ht⟩ (0 : Fin 2) * 16384 + 16384
    rw [e4]; show (i 0).val / 16384 * 16384 ≤ (i 0).val ∧ (i 0).val < (i 0).val / 16384 * 16384 + 16384; omega
  | ⟨1, _⟩ =>
    show win2_2.index ⟨(i 0).val / 16384, ht⟩ (1 : Fin 2) * 64 ≤ (i 1).val ∧ (i 1).val < win2_2.index ⟨(i 0).val / 16384, ht⟩ (1 : Fin 2) * 64 + 64
    rw [e5]; omega

theorem arr2 (c : Dev nD) : (dat2 (F := Ideal) V c).arrAt 2 cfg2.N = Cert.Lgcn.rowScale (V c main_v45) (V c main_v26) :=
  (dat2 (F := Ideal) V c).arrAt_eq_of_cover 2 (Cert.Lgcn.rowScale (V c main_v45) (V c main_v26))
    (fun t _ => mulFlushed2 V c t) (mulCover2)

/-! ## Region 4: the same scaling of the third round's gathered rows -/

/-- The gathered rows as region 4 finds them. -/
abbrev mulRows4 (c : Dev nD) : Vec Ideal S4014080x64 .f32 := V c main_v57

/-- Entry `(e, k)` of the block the body stores is entry `(e, k)` of the rows' block times entry `(e, 0)` of the
    weights' block. -/
theorem mulPay4_apply (x0 : Vec Ideal S16384x64 .f32) (x1 : Vec Ideal S16384x1 .f32) (j : S16384x64.Idx) :
    k4_pay1 x0 x1 j = x0 j * x1 (ix2 (j 0) (0 : Fin 1)) := by
  show mulf (F := Ideal) (s := S16384x64) (φ := .f32) (shapeCast S16384x64 x0 shapeCasts_S16384x64_S16384x64)
      (broadcastTo S16384x64 (shapeCast S16384x1 x1 shapeCasts_S16384x1_S16384x1) broadcasts_S16384x1_S16384x64) j = _
  rw [shapeCast_self, shapeCast_self, mulf_apply]
  congr 1
  refine broadcastTo_apply x1 broadcasts_S16384x1_S16384x64 j (ix2 (j 0) (0 : Fin 1)) (fun a => ?_)
  match a with
  | ⟨0, _⟩ => rfl
  | ⟨1, _⟩ => rfl

/-- The three index maps over the grid: point `t` takes block row `t`, block column 0, of each array. -/
theorem mulIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the row-scaled array. -/
theorem mulFlushed4 (c : Dev nD) (t : Fin cfg4.N) :
    (dat4 (F := Ideal) V c).flushed 2 t
      = ((cfg4.win 2).blk t).view.read (Elt Ideal) (Cert.Lgcn.rowScale (V c main_v57) (V c main_v26)) := by
  show (cfg4.win 2).cut (grid4.coords t) ((dat4 (F := Ideal) V c).after 2 t) = _
  rw [after4_2]
  unfold out4_2
  rw [View.canon_unit_zero mulZeroOffset]
  simp only [View.ld_unit_zero (S := S16384x64) mulZeroOffset, View.ld_unit_zero (S := S16384x1) mulZeroOffset]
  obtain ⟨e0, e1, e2, e3, e4, e5⟩ := mulIdx4 t
  funext j
  refine (mulPay4_apply _ _ j).trans ?_
  show mulRows4 V c (((cfg4.win 0).blk t).view.emb j) * mulWeights V c (((cfg4.win 1).blk t).view.emb (ix2 (j 0) (0 : Fin 1)))
    = mulRows4 V c (((cfg4.win 2).blk t).view.emb j) * mulWeights V c (ix2 ((((cfg4.win 2).blk t).view.emb j) 0) (0 : Fin 1))
  have h0 : ((cfg4.win 0).blk t).view.emb j = ((cfg4.win 2).blk t).view.emb j := by
    funext a; apply Fin.ext
    match a with
    | ⟨0, _⟩ => show win4_0.index t (0 : Fin 2) * 16384 + 1 * (j 0).val = win4_2.index t (0 : Fin 2) * 16384 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (j 0) (0 : Fin 1)) = ix2 ((((cfg4.win 2).blk t).view.emb j) 0) (0 : Fin 1) := by
    funext a; apply Fin.ext
    match a with
    | ⟨0, _⟩ => show win4_1.index t (0 : Fin 2) * 16384 + 1 * (j 0).val = win4_2.index t (0 : Fin 2) * 16384 + 1 * (j 0).val; omega
    | ⟨1, _⟩ => show win4_1.index t (1 : Fin 2) * 1 + 1 * 0 = 0; omega
  rw [h0, h1]
  rfl

/-- An index of the array is in point `t`'s block iff each coordinate is in the block's range on its axis. -/
theorem mulMemBlk4 (t : Fin cfg4.N) (i : S4014080x64.Idx) :
    i ∈ ((cfg4.win 2).blk t).view.set ↔ ∀ a : Fin 2, win4_2.index t a * S16384x64.size a ≤ (i a).val ∧ (i a).val < win4_2.index t a * S16384x64.size a + S16384x64.size a := by
  show i ∈ ((View.whole main_v58).slice (win4_2.rect t)).set ↔ _
  rw [View.set_slice_whole, Rect.mem_set_unit]
  exact Iff.rfl

/-- The 245 blocks of 16384 rows fill the 4014080 rows: row `r` is in the block of point `r / 16384`. -/
theorem mulCover4 (i : S4014080x64.Idx) :
    ∃ t : Fin cfg4.N, (cfg4.win 2).flush t = true ∧ i ∈ ((cfg4.win 2).blk t).view.set := by
  have hi0 : (i 0).val < 4014080 := (i 0).isLt
  have hi1 : (i 1).val < 64 := (i 1).isLt
  have ht : (i 0).val / 16384 < 245 := by omega
  refine ⟨⟨(i 0).val / 16384, ht⟩, flush4_2 _, ?_⟩
  obtain ⟨e0, e1, e2, e3, e4, e5⟩ := mulIdx4 ⟨(i 0).val / 16384, ht⟩
  rw [mulMemBlk4]
  intro a
  match a with
  | ⟨0, _⟩ =>
    show win4_2.index ⟨(i 0).val / 16384, ht⟩ (0 : Fin 2) * 16384 ≤ (i 0).val ∧ (i 0).val < win4_2.index ⟨(i 0).val / 16384, ht⟩ (0 : Fin 2) * 16384 + 16384
    rw [e4]; show (i 0).val / 16384 * 16384 ≤ (i 0).val ∧ (i 0).val < (i 0).val / 16384 * 16384 + 16384; omega
  | ⟨1, _⟩ =>
    show win4_2.index ⟨(i 0).val / 16384, ht⟩ (1 : Fin 2) * 64 ≤ (i 1).val ∧ (i 1).val < win4_2.index ⟨(i 0).val / 16384, ht⟩ (1 : Fin 2) * 64 + 64
    rw [e5]; omega

theorem arr4 (c : Dev nD) : (dat4 (F := Ideal) V c).arrAt 2 cfg4.N = Cert.Lgcn.rowScale (V c main_v57) (V c main_v26) :=
  (dat4 (F := Ideal) V c).arrAt_eq_of_cover 2 (Cert.Lgcn.rowScale (V c main_v57) (V c main_v26))
    (fun t _ => mulFlushed4 V c t) (mulCover4)

end Cert.KernelIdeal.RegionValue

end
-- ==== Proof.RegionAdd.lean ====
/-
  What each of four pointwise kernels leaves in its output array, as one function of its input arrays.

  Each kernel runs over 15 points; point t stages rows 20000 t .. 20000 t + 19999 (all 64 columns) of every array,
  applies its pointwise operation to the staged blocks, and writes the result back over the same rows of the output.
  Three of them add two tables entry by entry; the fourth multiplies one table by a constant. Per kernel the steps are
  the same: the payload is the pointwise operation of the loaded blocks; the inputs' blocks sit where the output's block
  sits (decided over the 15 points); so what point t writes back is block t of the whole-array function; the 15 blocks
  cover the 300000 rows (row r is in block r / 20000); hence the array ends holding that function.
-/
import proofs.«113189_j89670327206250_1_alg».proof.Proof.Gen.KernelIdeal.Frame
import proofs.«113189_j89670327206250_1_alg».proof.Proof.RegionSpec
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## Shared by the four kernels -/

/-- The offset of a store over the whole block is zero on both axes. -/
theorem off_zero : (![0, 0] : Fin 2 → Nat) = fun _ => 0 := funext fun a => by fin_cases a <;> rfl

/-- Two tables read at one place and added give the entrywise sum read at that place. -/
theorem sum_at (a b : Vec Ideal S300000x64 .f32) {x y z : S300000x64.Idx} (hx : x = z) (hy : y = z) :
    a x + b y = Cert.Lgcn.addArr a b z := by
  subst hx hy; rfl

/-- A table read at a place and multiplied by the constant gives the table's constant multiple read at that place. -/
theorem scaled_at (a : Vec Ideal S300000x64 .f32) {x z : S300000x64.Idx} (hx : x = z) :
    a x * Scalar.ofBits (F := Ideal) .f32 0x3E800000#32 = Cert.Lgcn.quarter a z := by
  subst hx; rfl

/-! ## The first sum kernel -/

/-- The sum kernel's payload: the two loaded blocks added entry by entry (the casts to the same shape are identities). -/
theorem sum_pay1 (x0 x1 : Vec Ideal S20000x64 .f32) : k1_pay1 x0 x1 = addf x0 x1 := by
  unfold k1_pay1
  simp only [shapeCast_self]

/-- Over the 15 points: the two inputs' blocks move with the output's, whose block row is the point's number and whose
    block column is 0. -/
theorem blk_idx1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

/-- What point `t` writes back is block `t` of the entrywise sum of the two input arrays. -/
theorem wrote1 (c : Dev nD) (t : Fin cfg1.N) :
    (dat1 (F := Ideal) V c).flushed 2 t = ((cfg1.win 2).blk t).view.read (Elt Ideal) (Cert.Lgcn.addArr (V c main_v0) (V c main_v37)) := by
  show (cfg1.win 2).cut (grid1.coords t) ((dat1 (F := Ideal) V c).after 2 t) = _
  rw [after1_2]
  unfold out1_2
  rw [View.canon_unit_zero off_zero]
  simp only [View.ld_unit_zero (S := S20000x64) off_zero]
  rw [sum_pay1]
  obtain ⟨e0, e1, e2, e3, e4, e5⟩ := blk_idx1 t
  funext j
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 64 + 1 * (j 1).val = win1_2.index t (1 : Fin 2) * 64 + 1 * (j 1).val; omega
  exact sum_at (V c main_v0) (V c main_v37) h0 h1

/-- An index of the array is in point `t`'s block iff each coordinate is in the block's range on its axis. -/
theorem in_blk1 (t : Fin cfg1.N) (i : S300000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v38).slice (win1_2.rect t)).set ↔ _
  rw [View.set_slice_whole, Rect.mem_set_unit]
  exact Iff.rfl

/-- Every entry of the array lies in the block of the point numbered by its row divided by 20000. -/
theorem cover1 (i : S300000x64.Idx) :
    ∃ t : Fin cfg1.N, (cfg1.win 2).flush t = true ∧ i ∈ ((cfg1.win 2).blk t).view.set := by
  have hi0 : (i 0).val < 300000 := (i 0).isLt
  have hi1 : (i 1).val < 64 := (i 1).isLt
  let t : Fin cfg1.N := ⟨(i 0).val / 20000, by show (i 0).val / 20000 < 15; omega⟩
  obtain ⟨e0, e1, e2, e3, e4, e5⟩ := blk_idx1 t
  have e4' : win1_2.index t (0 : Fin 2) = (i 0).val / 20000 := e4
  refine ⟨t, flush1_2 t, ?_⟩
  rw [in_blk1]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

theorem arr1 (c : Dev nD) : (dat1 (F := Ideal) V c).arrAt 2 cfg1.N = Cert.Lgcn.addArr (V c main_v0) (V c main_v37) :=
  (dat1 (F := Ideal) V c).arrAt_eq_of_cover 2 (Cert.Lgcn.addArr (V c main_v0) (V c main_v37)) (fun t _ => wrote1 V c t) cover1

/-! ## The second sum kernel -/

/-- The sum kernel's payload: the two loaded blocks added entry by entry (the casts to the same shape are identities). -/
theorem sum_pay3 (x0 x1 : Vec Ideal S20000x64 .f32) : k3_pay1 x0 x1 = addf x0 x1 := by
  unfold k3_pay1
  simp only [shapeCast_self]

/-- Over the 15 points: the two inputs' blocks move with the output's, whose block row is the point's number and whose
    block column is 0. -/
theorem blk_idx3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val
    ∧ win3_2.index t (1 : Fin 2) = 0 :=
  (by decide +kernel : ∀ t : Fin grid3.N, _)

/-- What point `t` writes back is block `t` of the entrywise sum of the two input arrays. -/
theorem wrote3 (c : Dev nD) (t : Fin cfg3.N) :
    (dat3 (F := Ideal) V c).flushed 2 t = ((cfg3.win 2).blk t).view.read (Elt Ideal) (Cert.Lgcn.addArr (V c main_v38) (V c main_v49)) := by
  show (cfg3.win 2).cut (grid3.coords t) ((dat3 (F := Ideal) V c).after 2 t) = _
  rw [after3_2]
  unfold out3_2
  rw [View.canon_unit_zero off_zero]
  simp only [View.ld_unit_zero (S := S20000x64) off_zero]
  rw [sum_pay3]
  obtain ⟨e0, e1, e2, e3, e4, e5⟩ := blk_idx3 t
  funext j
  have h0 : ((cfg3.win 0).blk t).view.emb j = ((cfg3.win 2).blk t).view.emb j := by
    funext a; apply Fin.ext
    match a with
    | ⟨0, _⟩ => show win3_0.index t (0 : Fin 2) * 20000 + 1 * (j 0).val = win3_2.index t (0 : Fin 2) * 20000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 20000 + 1 * (j 0).val = win3_2.index t (0 : Fin 2) * 20000 + 1 * (j 0).val; omega
    | ⟨1, _⟩ => show win3_1.index t (1 : Fin 2) * 64 + 1 * (j 1).val = win3_2.index t (1 : Fin 2) * 64 + 1 * (j 1).val; omega
  exact sum_at (V c main_v38) (V c main_v49) h0 h1

/-- An index of the array is in point `t`'s block iff each coordinate is in the block's range on its axis. -/
theorem in_blk3 (t : Fin cfg3.N) (i : S300000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v50).slice (win3_2.rect t)).set ↔ _
  rw [View.set_slice_whole, Rect.mem_set_unit]
  exact Iff.rfl

/-- Every entry of the array lies in the block of the point numbered by its row divided by 20000. -/
theorem cover3 (i : S300000x64.Idx) :
    ∃ t : Fin cfg3.N, (cfg3.win 2).flush t = true ∧ i ∈ ((cfg3.win 2).blk t).view.set := by
  have hi0 : (i 0).val < 300000 := (i 0).isLt
  have hi1 : (i 1).val < 64 := (i 1).isLt
  let t : Fin cfg3.N := ⟨(i 0).val / 20000, by show (i 0).val / 20000 < 15; omega⟩
  obtain ⟨e0, e1, e2, e3, e4, e5⟩ := blk_idx3 t
  have e4' : win3_2.index t (0 : Fin 2) = (i 0).val / 20000 := e4
  refine ⟨t, flush3_2 t, ?_⟩
  rw [in_blk3]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 64 ≤ (i 1).val ∧ (i 1).val < win3_2.index t (1 : Fin 2) * 64 + 64; omega

theorem arr3 (c : Dev nD) : (dat3 (F := Ideal) V c).arrAt 2 cfg3.N = Cert.Lgcn.addArr (V c main_v38) (V c main_v49) :=
  (dat3 (F := Ideal) V c).arrAt_eq_of_cover 2 (Cert.Lgcn.addArr (V c main_v38) (V c main_v49)) (fun t _ => wrote3 V c t) cover3

/-! ## The third sum kernel -/

/-- The sum kernel's payload: the two loaded blocks added entry by entry (the casts to the same shape are identities). -/
theorem sum_pay5 (x0 x1 : Vec Ideal S20000x64 .f32) : k5_pay1 x0 x1 = addf x0 x1 := by
  unfold k5_pay1
  simp only [shapeCast_self]

/-- Over the 15 points: the two inputs' blocks move with the output's, whose block row is the point's number and whose
    block column is 0. -/
theorem blk_idx5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val
    ∧ win5_2.index t (1 : Fin 2) = 0 :=
  (by decide +kernel : ∀ t : Fin grid5.N, _)

/-- What point `t` writes back is block `t` of the entrywise sum of the two input arrays. -/
theorem wrote5 (c : Dev nD) (t : Fin cfg5.N) :
    (dat5 (F := Ideal) V c).flushed 2 t = ((cfg5.win 2).blk t).view.read (Elt Ideal) (Cert.Lgcn.addArr (V c main_v50) (V c main_v61)) := by
  show (cfg5.win 2).cut (grid5.coords t) ((dat5 (F := Ideal) V c).after 2 t) = _
  rw [after5_2]
  unfold out5_2
  rw [View.canon_unit_zero off_zero]
  simp only [View.ld_unit_zero (S := S20000x64) off_zero]
  rw [sum_pay5]
  obtain ⟨e0, e1, e2, e3, e4, e5⟩ := blk_idx5 t
  funext j
  have h0 : ((cfg5.win 0).blk t).view.emb j = ((cfg5.win 2).blk t).view.emb j := by
    funext a; apply Fin.ext
    match a with
    | ⟨0, _⟩ => show win5_0.index t (0 : Fin 2) * 20000 + 1 * (j 0).val = win5_2.index t (0 : Fin 2) * 20000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 20000 + 1 * (j 0).val = win5_2.index t (0 : Fin 2) * 20000 + 1 * (j 0).val; omega
    | ⟨1, _⟩ => show win5_1.index t (1 : Fin 2) * 64 + 1 * (j 1).val = win5_2.index t (1 : Fin 2) * 64 + 1 * (j 1).val; omega
  exact sum_at (V c main_v50) (V c main_v61) h0 h1

/-- An index of the array is in point `t`'s block iff each coordinate is in the block's range on its axis. -/
theorem in_blk5 (t : Fin cfg5.N) (i : S300000x64.Idx) :
    i ∈ ((cfg5.win 2).blk t).view.set ↔ ∀ a : Fin 2, win5_2.index t a * S20000x64.size a ≤ (i a).val ∧ (i a).val < win5_2.index t a * S20000x64.size a + S20000x64.size a := by
  show i ∈ ((View.whole main_v62).slice (win5_2.rect t)).set ↔ _
  rw [View.set_slice_whole, Rect.mem_set_unit]
  exact Iff.rfl

/-- Every entry of the array lies in the block of the point numbered by its row divided by 20000. -/
theorem cover5 (i : S300000x64.Idx) :
    ∃ t : Fin cfg5.N, (cfg5.win 2).flush t = true ∧ i ∈ ((cfg5.win 2).blk t).view.set := by
  have hi0 : (i 0).val < 300000 := (i 0).isLt
  have hi1 : (i 1).val < 64 := (i 1).isLt
  let t : Fin cfg5.N := ⟨(i 0).val / 20000, by show (i 0).val / 20000 < 15; omega⟩
  obtain ⟨e0, e1, e2, e3, e4, e5⟩ := blk_idx5 t
  have e4' : win5_2.index t (0 : Fin 2) = (i 0).val / 20000 := e4
  refine ⟨t, flush5_2 t, ?_⟩
  rw [in_blk5]
  intro a
  match a with
  | ⟨0, _⟩ => show win5_2.index t (0 : Fin 2) * 20000 ≤ (i 0).val ∧ (i 0).val < win5_2.index t (0 : Fin 2) * 20000 + 20000; omega
  | ⟨1, _⟩ => show win5_2.index t (1 : Fin 2) * 64 ≤ (i 1).val ∧ (i 1).val < win5_2.index t (1 : Fin 2) * 64 + 64; omega

theorem arr5 (c : Dev nD) : (dat5 (F := Ideal) V c).arrAt 2 cfg5.N = Cert.Lgcn.addArr (V c main_v50) (V c main_v61) :=
  (dat5 (F := Ideal) V c).arrAt_eq_of_cover 2 (Cert.Lgcn.addArr (V c main_v50) (V c main_v61)) (fun t _ => wrote5 V c t) cover5

/-! ## The scaling kernel -/

/-- The scaling kernel's payload: the loaded block times the constant spread over the block (the cast to the same shape
    is the identity). -/
theorem scale_pay6 (x0 : Vec Ideal S20000x64 .f32) :
    k6_pay1 x0 = mulf x0 (broadcast S20000x64 (Scalar.ofBits (F := Ideal) .f32 0x3E800000#32)) := by
  unfold k6_pay1
  simp only [shapeCast_self]

/-- Over the 15 points: the input's block moves with the output's, whose block row is the point's number and whose
    block column is 0. -/
theorem blk_idx6 : ∀ t : Fin cfg6.N, win6_0.index t (0 : Fin 2) = win6_1.index t (0 : Fin 2)
    ∧ win6_0.index t (1 : Fin 2) = win6_1.index t (1 : Fin 2)
    ∧ win6_1.index t (0 : Fin 2) = t.val
    ∧ win6_1.index t (1 : Fin 2) = 0 :=
  (by decide +kernel : ∀ t : Fin grid6.N, _)

/-- What point `t` writes back is block `t` of the input array's constant multiple. -/
theorem wrote6 (c : Dev nD) (t : Fin cfg6.N) :
    (dat6 (F := Ideal) V c).flushed 1 t = ((cfg6.win 1).blk t).view.read (Elt Ideal) (Cert.Lgcn.quarter (V c main_v62)) := by
  show (cfg6.win 1).cut (grid6.coords t) ((dat6 (F := Ideal) V c).after 1 t) = _
  rw [after6_1]
  unfold out6_1
  rw [View.canon_unit_zero off_zero]
  simp only [View.ld_unit_zero (S := S20000x64) off_zero]
  rw [scale_pay6]
  obtain ⟨e0, e1, e2, e3⟩ := blk_idx6 t
  funext j
  have h0 : ((cfg6.win 0).blk t).view.emb j = ((cfg6.win 1).blk t).view.emb j := by
    funext a; apply Fin.ext
    match a with
    | ⟨0, _⟩ => show win6_0.index t (0 : Fin 2) * 20000 + 1 * (j 0).val = win6_1.index t (0 : Fin 2) * 20000 + 1 * (j 0).val; omega
    | ⟨1, _⟩ => show win6_0.index t (1 : Fin 2) * 64 + 1 * (j 1).val = win6_1.index t (1 : Fin 2) * 64 + 1 * (j 1).val; omega
  exact scaled_at (V c main_v62) h0

/-- An index of the array is in point `t`'s block iff each coordinate is in the block's range on its axis. -/
theorem in_blk6 (t : Fin cfg6.N) (i : S300000x64.Idx) :
    i ∈ ((cfg6.win 1).blk t).view.set ↔ ∀ a : Fin 2, win6_1.index t a * S20000x64.size a ≤ (i a).val ∧ (i a).val < win6_1.index t a * S20000x64.size a + S20000x64.size a := by
  show i ∈ ((View.whole main_v63).slice (win6_1.rect t)).set ↔ _
  rw [View.set_slice_whole, Rect.mem_set_unit]
  exact Iff.rfl

/-- Every entry of the array lies in the block of the point numbered by its row divided by 20000. -/
theorem cover6 (i : S300000x64.Idx) :
    ∃ t : Fin cfg6.N, (cfg6.win 1).flush t = true ∧ i ∈ ((cfg6.win 1).blk t).view.set := by
  have hi0 : (i 0).val < 300000 := (i 0).isLt
  have hi1 : (i 1).val < 64 := (i 1).isLt
  let t : Fin cfg6.N := ⟨(i 0).val / 20000, by show (i 0).val / 20000 < 15; omega⟩
  obtain ⟨e0, e1, e2, e3⟩ := blk_idx6 t
  have e2' : win6_1.index t (0 : Fin 2) = (i 0).val / 20000 := e2
  refine ⟨t, flush6_1 t, ?_⟩
  rw [in_blk6]
  intro a
  match a with
  | ⟨0, _⟩ => show win6_1.index t (0 : Fin 2) * 20000 ≤ (i 0).val ∧ (i 0).val < win6_1.index t (0 : Fin 2) * 20000 + 20000; omega
  | ⟨1, _⟩ => show win6_1.index t (1 : Fin 2) * 64 ≤ (i 1).val ∧ (i 1).val < win6_1.index t (1 : Fin 2) * 64 + 64; omega

theorem arr6 (c : Dev nD) : (dat6 (F := Ideal) V c).arrAt 1 cfg6.N = Cert.Lgcn.quarter (V c main_v62) :=
  (dat6 (F := Ideal) V c).arrAt_eq_of_cover 1 (Cert.Lgcn.quarter (V c main_v62)) (fun t _ => wrote6 V c t) cover6

end Cert.KernelIdeal.RegionValue

end
-- ==== Proof.Rounds.lean ====
/-
  The two programs' message-passing round as one function each, over the pieces both are built from.

  The kernel program lengthens the edge list to 4014080 edges: the start and target node lists by zeros, the column of
  edge weights by zeros.  Its round gathers the target rows, scales each row by its edge's weight, and sums the rows at
  the start nodes.  The reference's round does the same over the 4000000 edges as given, with the weight as the left
  factor.  The edge weights themselves are computed by the same operations in both programs, so the reference's stage
  functions serve as the name of that column here.
-/
import proofs.«113189_j89670327206250_1_alg».proof.Proof.Gen.KernelIdeal
import proofs.«113189_j89670327206250_1_alg».proof.Proof.Gen.ReferenceIdeal.Read
import proofs.«113189_j89670327206250_1_alg».proof.Proof.RegionSpec

noncomputable section

namespace Cert.Rounds

open Idealize.ShloMosaic Idealize.ShloMosaic.TcCoe

namespace K

open Cert.KernelIdeal Cert.KernelIdeal.Gen

/-- A node list lengthened by 14080 zeros. -/
def padI (v : IVec S4000000 32) : IVec S4014080 32 :=
  pad S4014080 ![0] ![14080] ![0] v (constantI S_ 32 0#32) pads_S4000000_S4014080_0140800 h_S_

/-- The weights' column lengthened by 14080 zeros. -/
def padW (w : FVec Ideal S4000000x1 .f32) : FVec Ideal S4014080x1 .f32 :=
  pad S4014080x1 ![0, 0] ![14080, 0] ![0, 0] w (sitofp .f32 (constantI S_ 32 0#32)) pads_S4000000x1_S4014080x1_0140800_000 h_S_

/-- The column of row numbers a gather reads: a negative entry counts from the table's end. -/
def idxCol (v : IVec S4014080 32) : IVec S4014080x1 32 :=
  broadcastInDim S4014080x1 ![0] bcast_S4014080_S4014080x1_0
    (select (cmpi .slt v (broadcastInDim S4014080 ![] bcast_S_S4014080 (constantI S_ 32 0#32)))
      (addi v (broadcastInDim S4014080 ![] bcast_S_S4014080 (constantI S_ 32 300000#32))) v)

/-- The column of row numbers a segment sum adds at. -/
def srcCol (v : IVec S4014080 32) : IVec S4014080x1 32 :=
  broadcastInDim S4014080x1 ![0] bcast_S4014080_S4014080x1_0 v

/-- The zero table a segment sum starts from. -/
def zerosT : FVec Ideal S300000x64 .f32 :=
  broadcastInDim S300000x64 ![] bcast_S_S300000x64 (constant S_ .f32 0x00000000#32)

/-- ONE ROUND of the kernel program over the lengthened lists `sp`, `dp` and weights `wp`, from the table `h`. -/
def round (sp dp : IVec S4014080 32) (wp : FVec Ideal S4014080x1 .f32) (h : FVec Ideal S300000x64 .f32) :
    FVec Ideal S300000x64 .f32 :=
  Host.scatterAdd scatter_S300000x64_S4014080x1_S4014080x64_1_0_0_1 zerosT (srcCol sp)
    (Cert.Lgcn.rowScale (Host.gather gather_S300000x64_S4014080x1_S4014080x64_1_0_n_n_0_1_164 h (idxCol dp)) wp)

end K

namespace R

open Cert.ReferenceIdeal Cert.ReferenceIdeal.Gen Cert.ReferenceIdeal.Read

/-- ONE ROUND of the reference over the start nodes `x2` and target nodes `x3`, from the table `h`. -/
def round (x2 x3 : IVec S4000000 32) (h : FVec Ideal S300000x64 .f32) : FVec Ideal S300000x64 .f32 :=
  Host.scatterAdd scatter_S300000x64_S4000000x1_S4000000x64_1_0_0_1 (val_main_v33 (F := Ideal)) (val_main_v34 (F := Ideal) x2)
    (mulf (val_main_v31 (F := Ideal) x2 x3)
      (Host.gather gather_S300000x64_S4000000x1_S4000000x64_1_0_n_n_0_1_164 h (val_main_v29 (F := Ideal) x3)))

end R

end Cert.Rounds

end
-- ==== Proof.KChain.lean ====
/-
  The kernel program's buffers at each boundary of @main, as functions of the four argument arrays.

  @main is seven pallas_calls among stretches of host operations.  Walking the boundaries in order: a host stretch writes
  each of its results as its operation of buffers already known; a pallas_call writes its output array as its kernel's
  whole-array function of its input arrays; every other buffer keeps what it held.  At the last boundary the two results are
  the two slices of one quarter of `x + h₁ + h₂ + h₃`, with `x` the joined table and `hₖ₊₁` one round from `hₖ` (`h₀ = x`).
-/
import proofs.«113189_j89670327206250_1_alg».proof.Proof.Gen.KernelIdeal.Frame
import proofs.«113189_j89670327206250_1_alg».proof.Proof.RegionMul
import proofs.«113189_j89670327206250_1_alg».proof.Proof.RegionAdd
import proofs.«113189_j89670327206250_1_alg».proof.Proof.Rounds
import Idealize.ShloMosaic.Lib.StableHlo.Run

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen Cert.Lgcn
open Cert.Rounds (K.padI K.padW K.idxCol K.srcCol K.zerosT K.round)
open Cert.ReferenceIdeal.Read (val_main_v0 val_main_v23)

variable (m : (ℓ : Loc nD τ sig) → Buf (Elt Ideal) ℓ) (ρ : Dev nD → PrngReg) (c : Dev nD)

/-! ## The pieces, named -/

/-- The joined node table. -/
def X : FVec Ideal S300000x64 .f32 :=
  val_main_v0 (F := Ideal) (m ((c.tc : Thread nD τ).loc main_arg0)) (m ((c.tc : Thread nD τ).loc main_arg1))
/-- The target nodes, lengthened. -/
def DP : IVec S4014080 32 := K.padI (m ((c.tc : Thread nD τ).loc main_arg3))
/-- The start nodes, lengthened. -/
def SP : IVec S4014080 32 := K.padI (m ((c.tc : Thread nD τ).loc main_arg2))
/-- The edge weights, lengthened. -/
def WP : FVec Ideal S4014080x1 .f32 :=
  K.padW (val_main_v23 (F := Ideal) (m ((c.tc : Thread nD τ).loc main_arg2)) (m ((c.tc : Thread nD τ).loc main_arg3)))
/-- The target rows of a table. -/
def G (h : FVec Ideal S300000x64 .f32) : FVec Ideal S4014080x64 .f32 :=
  Host.gather gather_S300000x64_S4014080x1_S4014080x64_1_0_n_n_0_1_164 h (K.idxCol (DP m c))
/-- The messages from a table. -/
def M (h : FVec Ideal S300000x64 .f32) : FVec Ideal S4014080x64 .f32 := rowScale (G m c h) (WP m c)
/-- One round from a table. -/
def H (h : FVec Ideal S300000x64 .f32) : FVec Ideal S300000x64 .f32 := K.round (SP m c) (DP m c) (WP m c) h

def H1 : FVec Ideal S300000x64 .f32 := H m c (X m c)
def A1 : FVec Ideal S300000x64 .f32 := addArr (X m c) (H1 m c)
def H2 : FVec Ideal S300000x64 .f32 := H m c (H1 m c)
def A2 : FVec Ideal S300000x64 .f32 := addArr (A1 m c) (H2 m c)
def H3 : FVec Ideal S300000x64 .f32 := H m c (H2 m c)
def A3 : FVec Ideal S300000x64 .f32 := addArr (A2 m c) (H3 m c)
/-- The mean of the four tables. -/
def OUT : FVec Ideal S300000x64 .f32 := quarter (A3 m c)

/-! ## Entering the first pallas_call -/

theorem W7_v0 : W7 m ρ c (Proc.devRef .tc main_v0) = X m c := by
  dsimp only [W7, W6, W5, W4, W3, W2, W1, W0, hostOps0, hostOps0_1, hostOps0_2, hostOps0_3, hostOps0_4, hostOps0_5, hostOps0_6]
  after_results_simp
  rfl
theorem W7_v24 : W7 m ρ c (Proc.devRef .tc main_v24) = DP m c := by
  dsimp only [W7, W6, W5, W4, W3, W2, W1, W0, hostOps0, hostOps0_1, hostOps0_2, hostOps0_3, hostOps0_4, hostOps0_5, hostOps0_6]
  after_results_simp
  rfl
theorem W7_v25 : W7 m ρ c (Proc.devRef .tc main_v25) = SP m c := by
  dsimp only [W7, W6, W5, W4, W3, W2, W1, W0, hostOps0, hostOps0_1, hostOps0_2, hostOps0_3, hostOps0_4, hostOps0_5, hostOps0_6]
  after_results_simp
  rfl
/-- The column of edge weights, after the first stretch: the same operations as the reference's. -/
theorem W1_v23 : W1 m ρ c (Proc.devRef .tc main_v23)
    = val_main_v23 (F := Ideal) (m ((c.tc : Thread nD τ).loc main_arg2)) (m ((c.tc : Thread nD τ).loc main_arg3)) := by
  dsimp only [W1, W0, hostOps0]
  after_results_simp
  rfl
/-- The buffers after the first stretch, under a name of their own: the later stretches are read with it closed. -/
def U1 : Valuation τ sig (Elt Ideal) := W1 m ρ c
theorem U1_v23 : U1 m ρ c (Proc.devRef .tc main_v23)
    = val_main_v23 (F := Ideal) (m ((c.tc : Thread nD τ).loc main_arg2)) (m ((c.tc : Thread nD τ).loc main_arg3)) := W1_v23 m ρ c
/-- The padded weights as the called function writes them (through its typed buffers) are the padded weights. -/
theorem padW_typed (w : FVec Ideal S4000000x1 .f32) :
    (TRef.of main_v26 (T := ⟨S4014080x1, .f32⟩)).toBuf (Val := Elt Ideal)
      (pad S4014080x1 ![0, 0] ![14080, 0] ![0, 0] ((TRef.of main_v23 (T := ⟨S4000000x1, .f32⟩)).ofBuf (Val := Elt Ideal) w)
        ((TRef.of main_call2_v0 (T := ⟨S_, .f32⟩)).ofBuf (Val := Elt Ideal) ((TRef.of main_call2_v0 (T := ⟨S_, .f32⟩)).toBuf (Val := Elt Ideal)
          (sitofp (F := Ideal) .f32 ((TRef.of main_c_7 (T := ⟨S_, .i32⟩)).ofBuf (Val := Elt Ideal) (constantI S_ 32 0#32)))))
        pads_S4000000x1_S4014080x1_0140800_000 h_S_)
      = K.padW w := rfl
theorem W7_v26 : W7 m ρ c (Proc.devRef .tc main_v26) = WP m c := by
  dsimp only [W7, W6, W5, W4, W3, W2, hostOps0_1, hostOps0_2, hostOps0_3, hostOps0_4, hostOps0_5, hostOps0_6]
  rw [show W1 m ρ c = U1 m ρ c from rfl]
  after_results_simp
  rw [U1_v23 m ρ c]
  exact padW_typed _
theorem W7_v33 : W7 m ρ c (Proc.devRef .tc main_v33) = G m c (X m c) := by
  dsimp only [W7, W6, W5, W4, W3, W2, W1, W0, hostOps0, hostOps0_1, hostOps0_2, hostOps0_3, hostOps0_4, hostOps0_5, hostOps0_6]
  after_results_simp
  rfl

/-! ## After the first pallas_call: the messages from the joined table -/

theorem W8_v34 : W8 m ρ c (Proc.devRef .tc main_v34) = M m c (X m c) :=
  (W8_arr m ρ c 2).trans ((RegionValue.arr0 (V7 m ρ) c).trans (congrArg₂ rowScale (W7_v33 m ρ c) (W7_v26 m ρ c)))
theorem W8_v0 : W8 m ρ c (Proc.devRef .tc main_v0) = X m c := (W8_of_ne m ρ c main_v0 (by decide)).trans (W7_v0 m ρ c)
theorem W8_v24 : W8 m ρ c (Proc.devRef .tc main_v24) = DP m c := (W8_of_ne m ρ c main_v24 (by decide)).trans (W7_v24 m ρ c)
theorem W8_v25 : W8 m ρ c (Proc.devRef .tc main_v25) = SP m c := (W8_of_ne m ρ c main_v25 (by decide)).trans (W7_v25 m ρ c)
theorem W8_v26 : W8 m ρ c (Proc.devRef .tc main_v26) = WP m c :=
  (W8_arr m ρ c 1).trans (((dat0 (V7 m ρ) c).arrAt_in 1 rfl cfg0.N).trans ((A_eq0 (V7 m ρ) c 1).trans (W7_v26 m ρ c)))

/-! ## The first segment sum -/

theorem W9_v37 : W9 m ρ c (Proc.devRef .tc main_v37) = H1 m c := by
  dsimp only [W9, hostOps1]
  after_results_simp
  rw [W8_v25 m ρ c, W8_v34 m ρ c]
  rfl
theorem W9_v0 : W9 m ρ c (Proc.devRef .tc main_v0) = X m c := by
  dsimp only [W9, hostOps1]; after_results_simp; exact W8_v0 m ρ c
theorem W9_v24 : W9 m ρ c (Proc.devRef .tc main_v24) = DP m c := by
  dsimp only [W9, hostOps1]; after_results_simp; exact W8_v24 m ρ c
theorem W9_v25 : W9 m ρ c (Proc.devRef .tc main_v25) = SP m c := by
  dsimp only [W9, hostOps1]; after_results_simp; exact W8_v25 m ρ c
theorem W9_v26 : W9 m ρ c (Proc.devRef .tc main_v26) = WP m c := by
  dsimp only [W9, hostOps1]; after_results_simp; exact W8_v26 m ρ c

/-! ## After the second pallas_call: the first partial sum -/

theorem W10_v38 : W10 m ρ c (Proc.devRef .tc main_v38) = A1 m c :=
  (W10_arr m ρ c 2).trans ((RegionValue.arr1 (V9 m ρ) c).trans (congrArg₂ addArr (W9_v0 m ρ c) (W9_v37 m ρ c)))
theorem W10_v24 : W10 m ρ c (Proc.devRef .tc main_v24) = DP m c := (W10_of_ne m ρ c main_v24 (by decide)).trans (W9_v24 m ρ c)
theorem W10_v25 : W10 m ρ c (Proc.devRef .tc main_v25) = SP m c := (W10_of_ne m ρ c main_v25 (by decide)).trans (W9_v25 m ρ c)
theorem W10_v26 : W10 m ρ c (Proc.devRef .tc main_v26) = WP m c := (W10_of_ne m ρ c main_v26 (by decide)).trans (W9_v26 m ρ c)
theorem W10_v37 : W10 m ρ c (Proc.devRef .tc main_v37) = H1 m c :=
  (W10_arr m ρ c 1).trans (((dat1 (V9 m ρ) c).arrAt_in 1 rfl cfg1.N).trans ((A_eq1 (V9 m ρ) c 1).trans (W9_v37 m ρ c)))

/-! ## The second round's target rows, messages and segment sum; the second partial sum -/

theorem W11_v45 : W11 m ρ c (Proc.devRef .tc main_v45) = G m c (H1 m c) := by
  dsimp only [W11, hostOps2]
  after_results_simp
  rw [W10_v24 m ρ c, W10_v37 m ρ c]
  rfl
theorem W11_v24 : W11 m ρ c (Proc.devRef .tc main_v24) = DP m c := by
  dsimp only [W11, hostOps2]; after_results_simp; exact W10_v24 m ρ c
theorem W11_v25 : W11 m ρ c (Proc.devRef .tc main_v25) = SP m c := by
  dsimp only [W11, hostOps2]; after_results_simp; exact W10_v25 m ρ c
theorem W11_v26 : W11 m ρ c (Proc.devRef .tc main_v26) = WP m c := by
  dsimp only [W11, hostOps2]; after_results_simp; exact W10_v26 m ρ c
theorem W11_v38 : W11 m ρ c (Proc.devRef .tc main_v38) = A1 m c := by
  dsimp only [W11, hostOps2]; after_results_simp; exact W10_v38 m ρ c

theorem W12_v46 : W12 m ρ c (Proc.devRef .tc main_v46) = M m c (H1 m c) :=
  (W12_arr m ρ c 2).trans ((RegionValue.arr2 (V11 m ρ) c).trans (congrArg₂ rowScale (W11_v45 m ρ c) (W11_v26 m ρ c)))
theorem W12_v24 : W12 m ρ c (Proc.devRef .tc main_v24) = DP m c := (W12_of_ne m ρ c main_v24 (by decide)).trans (W11_v24 m ρ c)
theorem W12_v25 : W12 m ρ c (Proc.devRef .tc main_v25) = SP m c := (W12_of_ne m ρ c main_v25 (by decide)).trans (W11_v25 m ρ c)
theorem W12_v26 : W12 m ρ c (Proc.devRef .tc main_v26) = WP m c :=
  (W12_arr m ρ c 1).trans (((dat2 (V11 m ρ) c).arrAt_in 1 rfl cfg2.N).trans ((A_eq2 (V11 m ρ) c 1).trans (W11_v26 m ρ c)))
theorem W12_v38 : W12 m ρ c (Proc.devRef .tc main_v38) = A1 m c := (W12_of_ne m ρ c main_v38 (by decide)).trans (W11_v38 m ρ c)

theorem W13_v49 : W13 m ρ c (Proc.devRef .tc main_v49) = H2 m c := by
  dsimp only [W13, hostOps3]
  after_results_simp
  rw [W12_v25 m ρ c, W12_v46 m ρ c]
  rfl
theorem W13_v24 : W13 m ρ c (Proc.devRef .tc main_v24) = DP m c := by
  dsimp only [W13, hostOps3]; after_results_simp; exact W12_v24 m ρ c
theorem W13_v25 : W13 m ρ c (Proc.devRef .tc main_v25) = SP m c := by
  dsimp only [W13, hostOps3]; after_results_simp; exact W12_v25 m ρ c
theorem W13_v26 : W13 m ρ c (Proc.devRef .tc main_v26) = WP m c := by
  dsimp only [W13, hostOps3]; after_results_simp; exact W12_v26 m ρ c
theorem W13_v38 : W13 m ρ c (Proc.devRef .tc main_v38) = A1 m c := by
  dsimp only [W13, hostOps3]; after_results_simp; exact W12_v38 m ρ c

theorem W14_v50 : W14 m ρ c (Proc.devRef .tc main_v50) = A2 m c :=
  (W14_arr m ρ c 2).trans ((RegionValue.arr3 (V13 m ρ) c).trans (congrArg₂ addArr (W13_v38 m ρ c) (W13_v49 m ρ c)))
theorem W14_v24 : W14 m ρ c (Proc.devRef .tc main_v24) = DP m c := (W14_of_ne m ρ c main_v24 (by decide)).trans (W13_v24 m ρ c)
theorem W14_v25 : W14 m ρ c (Proc.devRef .tc main_v25) = SP m c := (W14_of_ne m ρ c main_v25 (by decide)).trans (W13_v25 m ρ c)
theorem W14_v26 : W14 m ρ c (Proc.devRef .tc main_v26) = WP m c := (W14_of_ne m ρ c main_v26 (by decide)).trans (W13_v26 m ρ c)
theorem W14_v49 : W14 m ρ c (Proc.devRef .tc main_v49) = H2 m c :=
  (W14_arr m ρ c 1).trans (((dat3 (V13 m ρ) c).arrAt_in 1 rfl cfg3.N).trans ((A_eq3 (V13 m ρ) c 1).trans (W13_v49 m ρ c)))

/-! ## The third round; the third partial sum -/

theorem W15_v57 : W15 m ρ c (Proc.devRef .tc main_v57) = G m c (H2 m c) := by
  dsimp only [W15, hostOps4]
  after_results_simp
  rw [W14_v24 m ρ c, W14_v49 m ρ c]
  rfl
theorem W15_v25 : W15 m ρ c (Proc.devRef .tc main_v25) = SP m c := by
  dsimp only [W15, hostOps4]; after_results_simp; exact W14_v25 m ρ c
theorem W15_v26 : W15 m ρ c (Proc.devRef .tc main_v26) = WP m c := by
  dsimp only [W15, hostOps4]; after_results_simp; exact W14_v26 m ρ c
theorem W15_v50 : W15 m ρ c (Proc.devRef .tc main_v50) = A2 m c := by
  dsimp only [W15, hostOps4]; after_results_simp; exact W14_v50 m ρ c

theorem W16_v58 : W16 m ρ c (Proc.devRef .tc main_v58) = M m c (H2 m c) :=
  (W16_arr m ρ c 2).trans ((RegionValue.arr4 (V15 m ρ) c).trans (congrArg₂ rowScale (W15_v57 m ρ c) (W15_v26 m ρ c)))
theorem W16_v25 : W16 m ρ c (Proc.devRef .tc main_v25) = SP m c := (W16_of_ne m ρ c main_v25 (by decide)).trans (W15_v25 m ρ c)
theorem W16_v50 : W16 m ρ c (Proc.devRef .tc main_v50) = A2 m c := (W16_of_ne m ρ c main_v50 (by decide)).trans (W15_v50 m ρ c)

theorem W17_v61 : W17 m ρ c (Proc.devRef .tc main_v61) = H3 m c := by
  dsimp only [W17, hostOps5]
  after_results_simp
  rw [W16_v25 m ρ c, W16_v58 m ρ c]
  rfl
theorem W17_v50 : W17 m ρ c (Proc.devRef .tc main_v50) = A2 m c := by
  dsimp only [W17, hostOps5]; after_results_simp; exact W16_v50 m ρ c

theorem W18_v62 : W18 m ρ c (Proc.devRef .tc main_v62) = A3 m c :=
  (W18_arr m ρ c 2).trans ((RegionValue.arr5 (V17 m ρ) c).trans (congrArg₂ addArr (W17_v50 m ρ c) (W17_v61 m ρ c)))

/-! ## The mean, and the two results -/

theorem W19_v63 : W19 m ρ c (Proc.devRef .tc main_v63) = OUT m c :=
  (W19_arr m ρ c 1).trans ((RegionValue.arr6 (V18 m ρ) c).trans (congrArg quarter (W18_v62 m ρ c)))

/-- THE FIRST RESULT: the user rows of the mean. -/
theorem W20_v64 : W20 m ρ c (Proc.devRef .tc main_v64)
    = extractStridedSlice S200000x64 ![0, 0] (OUT m c) slices_S300000x64_S200000x64_0_0 := by
  dsimp only [W20, hostOps7]
  after_results_simp
  rw [W19_v63 m ρ c]
/-- THE SECOND RESULT: the item rows of the mean. -/
theorem W20_v65 : W20 m ρ c (Proc.devRef .tc main_v65)
    = extractStridedSlice S100000x64 ![200000, 0] (OUT m c) slices_S300000x64_S100000x64_200000_0 := by
  dsimp only [W20, hostOps7]
  after_results_simp
  rw [W19_v63 m ρ c]

end Cert.KernelIdeal.KChain

end
-- ==== Proof.RowOps.lean ====
/-
  Row gathers and row scatters of a [300000, 64] table through a column [n, 1] of signed start indices, read at an index.

  A row gather's result entry `(e, k)` is the table's entry `(r, k)` with `r` the start index of edge `e` clamped into the
  table.  An accumulating row scatter's update entry `(e, k)` lands at table entry `(t, k)` with `t` the start index of edge
  `e` when `0 ≤ t < 300000`, and is dropped otherwise.  Both depend on the edge's start index and on `k` only, whatever the
  number `n` of edges: this is what lets two scatters over edge lists of different lengths be compared.
-/
import Idealize.ShloMosaic.PureOps.Ideal
import Idealize.ShloMosaic.Lib.ValueIdx

noncomputable section

namespace Cert.Lgcn

open Idealize.ShloMosaic Idealize.ShloMosaic.ValueIdx

/-- The node table's shape. -/
abbrev Tbl : Shape := ⟨2, ![300000, 64]⟩
/-- A column of `n` edge entries. -/
abbrev Col (n : Nat) : Shape := ⟨2, ![n, 1]⟩
/-- One 64-entry row per edge. -/
abbrev Rows (n : Nat) : Shape := ⟨2, ![n, 64]⟩

/-- The column entry of the edge that row-entry `j` belongs to. -/
abbrev colIdx {n : Nat} (j : (Rows n).Idx) : (Col n).Idx := ix2 (⟨(j 0).val, idx2_lt0 j⟩ : Fin n) (0 : Fin 1)

/-- The dimension numbers of `table[idx]` for a column of start indices. -/
abbrev rowGather (n : Nat) (wf : GatherDims.WF Tbl (Col n) (Rows n) [1] [0] [] [0] [] 1 ![1, 64]) :
    GatherDims Tbl (Col n) (Rows n) where
  offsetDims := [1]
  collapsedSliceDims := [0]
  operandBatchingDims := []
  startIndicesBatchingDims := []
  startIndexMap := [0]
  indexVectorDim := 1
  sliceSizes := ![1, 64]
  wf := wf

/-- The dimension numbers of a segment sum of rows by a column of start indices. -/
abbrev rowScatter (n : Nat) (wf : ScatterDims.WF Tbl (Col n) (Rows n) [1] [0] [0] 1) : ScatterDims Tbl (Col n) (Rows n) where
  updateWindowDims := [1]
  insertedWindowDims := [0]
  scatterDimsToOperandDims := [0]
  indexVectorDim := 1
  wf := wf

section Gather
variable {α : Type} {n w : Nat} (wf : GatherDims.WF Tbl (Col n) (Rows n) [1] [0] [] [0] [] 1 ![1, 64])

theorem rowGather_siIdx (j : (Rows n).Idx) (h) :
    (rowGather n wf).siIdx j ⟨List.idxOf (0 : Fin 2) (rowGather n wf).startIndexMap, h⟩ = colIdx j := by
  funext b; refine Fin.ext ?_
  match b with
  | ⟨0, _⟩ => rfl
  | ⟨1, _⟩ => rfl

/-- THE ROW GATHER READ AT AN ENTRY. -/
theorem rowGather_apply (x : Tbl.Idx → α) (idx : IVec (Col n) w) (j : (Rows n).Idx) :
    Host.gather (rowGather n wf) x idx j
      = x (ix2 (⟨min (idx (colIdx j)).toInt.toNat (300000 - 1), by omega⟩ : Fin 300000) (⟨(j 1).val, idx2_lt1 j⟩ : Fin 64)) := by
  unfold Host.gather
  congr 1
  funext a
  refine Fin.ext ?_
  match a with
  | ⟨0, _⟩ =>
    show (rowGather n wf).start j idx 0 + (rowGather n wf).batchCoord j 0 + (rowGather n wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather n wf).startIndexMap from List.mem_singleton.mpr rfl)]
    rw [rowGather_siIdx]
    rfl
  | ⟨1, _⟩ =>
    show (rowGather n wf).start j idx 1 + (rowGather n wf).batchCoord j 1 + (rowGather n wf).offCoord j 1 = _
    rw [GatherDims.batchCoord_eq_zero _ _ _ List.not_mem_nil]
    unfold GatherDims.start
    rw [dif_neg (show ¬ (1 : Fin 2) ∈ ([0] : List (Fin 2)) from by decide)]
    unfold GatherDims.offCoord
    rw [dif_pos ((GatherDims.mem_sKept _ _).2 ⟨show ¬ (1 : Fin 2) ∈ ([0] : List (Fin 2)) from by decide, List.not_mem_nil⟩)]
    simp only [List.getElem_singleton, Nat.zero_add]
    rfl

end Gather

section Scatter
variable {n w : Nat} (wf : ScatterDims.WF Tbl (Col n) (Rows n) [1] [0] [0] 1)

theorem rowScatter_siIdx (j : (Rows n).Idx) (h) :
    (rowScatter n wf).siIdx j ⟨List.idxOf (0 : Fin 2) (rowScatter n wf).scatterDimsToOperandDims, h⟩ = colIdx j := by
  funext b; refine Fin.ext ?_
  match b with
  | ⟨0, _⟩ => rfl
  | ⟨1, _⟩ => rfl

theorem rowScatter_start0 (idx : IVec (Col n) w) (j : (Rows n).Idx) :
    (rowScatter n wf).start j idx 0 = (idx (colIdx j)).toInt := by
  unfold ScatterDims.start
  rw [dif_pos (show (0 : Fin 2) ∈ ([0] : List (Fin 2)) from List.mem_singleton.mpr rfl), rowScatter_siIdx]

theorem rowScatter_start1 (idx : IVec (Col n) w) (j : (Rows n).Idx) : (rowScatter n wf).start j idx 1 = 0 := by
  unfold ScatterDims.start
  rw [dif_neg (show ¬ (1 : Fin 2) ∈ ([0] : List (Fin 2)) from by decide)]

theorem rowScatter_window0 (j : (Rows n).Idx) : (rowScatter n wf).window j 0 = 0 := by
  unfold ScatterDims.window
  rw [dif_neg (show ¬ (0 : Fin 2) ∈ Shape.kept Tbl [0] from by decide)]

theorem rowScatter_window1 (j : (Rows n).Idx) : (rowScatter n wf).window j 1 = (j 1).val := by
  unfold ScatterDims.window
  rw [dif_pos (show (1 : Fin 2) ∈ Shape.kept Tbl [0] from by decide)]
  simp only [List.getElem_singleton]
  rfl

/-- Where an update with start index `t` and column `k` lands: at table entry `(t, k)` when `t` is a row of the table. -/
def land (t : Int) (k : Fin 64) : Option Tbl.Idx :=
  if h : 0 ≤ t ∧ t < 300000 then some (ix2 (⟨t.toNat, by omega⟩ : Fin 300000) k) else none

/-- THE ROW SCATTER'S LANDING PLACE of update entry `j`: it depends on the edge's start index and on the column only. -/
theorem rowScatter_resultIdx? (idx : IVec (Col n) w) (j : (Rows n).Idx) :
    (rowScatter n wf).resultIdx? j idx = land (idx (colIdx j)).toInt ⟨(j 1).val, idx2_lt1 j⟩ := by
  have h0 := rowScatter_start0 wf idx j
  have h1 := rowScatter_start1 wf idx j
  have w0 := rowScatter_window0 wf j
  have w1 := rowScatter_window1 wf j
  have hj : (j 1).val < 64 := idx2_lt1 j
  unfold ScatterDims.resultIdx? land
  by_cases ht : 0 ≤ (idx (colIdx j)).toInt ∧ (idx (colIdx j)).toInt < 300000
  · rw [dif_pos ht, dif_pos]
    · congr 1; funext a; refine Fin.ext ?_
      match a with
      | ⟨0, _⟩ =>
        show ((rowScatter n wf).start j idx 0 + ((rowScatter n wf).window j 0 : Nat)).toNat = _
        rw [h0, w0]; simp
      | ⟨1, _⟩ =>
        show ((rowScatter n wf).start j idx 1 + ((rowScatter n wf).window j 1 : Nat)).toNat = _
        rw [h1, w1]; simp
    · intro a
      match a with
      | ⟨0, _⟩ =>
        show 0 ≤ (rowScatter n wf).start j idx 0 + ((rowScatter n wf).window j 0 : Nat)
          ∧ (rowScatter n wf).start j idx 0 + ((rowScatter n wf).window j 0 : Nat) < (300000 : Nat)
        rw [h0, w0]; omega
      | ⟨1, _⟩ =>
        show 0 ≤ (rowScatter n wf).start j idx 1 + ((rowScatter n wf).window j 1 : Nat)
          ∧ (rowScatter n wf).start j idx 1 + ((rowScatter n wf).window j 1 : Nat) < (64 : Nat)
        rw [h1, w1]; omega
  · rw [dif_neg ht, dif_neg]
    intro hall
    apply ht
    have h := hall 0
    have h' : 0 ≤ (rowScatter n wf).start j idx 0 + ((rowScatter n wf).window j 0 : Nat)
        ∧ (rowScatter n wf).start j idx 0 + ((rowScatter n wf).window j 0 : Nat) < (300000 : Nat) := h
    rw [h0, w0] at h'; omega

end Scatter

end Cert.Lgcn

end
-- ==== Proof.ScatterPad.lean ====
/-
  An accumulating scatter whose update list is lengthened by updates of value zero.

  At the exact instance the scatter's result at an entry is the operand's entry plus the sum of the updates that
  land there.  If a second update list contains the first one (through an injection of update positions that
  keeps every landing place and every value) and is zero everywhere else, the two sums have the same non-zero
  terms, so the two results are equal.
-/
import Idealize.ShloMosaic.PureOps.Ideal
import Idealize.ShloMosaic.Lib.ValueIdx

noncomputable section

namespace Cert.Lgcn

open Idealize.ShloMosaic

/-- Lengthening an accumulating scatter's updates by zeros: the landing places and values of the old updates are
    kept along `ι`, every new update is zero, hence the sums at each entry agree. -/
theorem hostScatterAdd_pad {s siK uK siR uR : Shape} {wK wR : Nat} (dK : ScatterDims s siK uK) (dR : ScatterDims s siR uR)
    (ι : uR.Idx → uK.Idx) (hι : Function.Injective ι)
    (idxK : IVec siK wK) (idxR : IVec siR wR) (updK : uK.Idx → EReal) (updR : uR.Idx → EReal)
    (hres : ∀ j, dK.resultIdx? (ι j) idxK = dR.resultIdx? j idxR)
    (hupd : ∀ j, updK (ι j) = updR j)
    (hzero : ∀ b, (∀ j, ι j ≠ b) → updK b = 0) (x : s.Idx → EReal) :
    Ideal.hostScatterAdd dK x idxK updK = Ideal.hostScatterAdd dR x idxR updR := by
  funext i
  unfold Ideal.hostScatterAdd
  congr 1
  symm
  refine Finset.sum_bij_ne_zero (fun a _ _ => ι a) ?_ ?_ ?_ ?_
  · intro a h₁ _
    simp only [Finset.mem_filter, Finset.mem_univ, true_and] at h₁ ⊢
    rw [hres]; exact h₁
  · intro a₁ _ _ a₂ _ _ h; exact hι h
  · intro b hb hne
    by_cases h : ∃ j, ι j = b
    · obtain ⟨j, rfl⟩ := h
      refine ⟨j, ?_, ?_, rfl⟩
      · simp only [Finset.mem_filter, Finset.mem_univ, true_and] at hb ⊢
        rw [← hres]; exact hb
      · rw [← hupd]; exact hne
    · exact absurd (hzero b (fun j hj => h ⟨j, hj⟩)) hne
  · intro a _ _; exact (hupd a).symm

end Cert.Lgcn

end
-- ==== Proof.LayerPad.lean ====
/-
  One round of message passing over an edge list lengthened by edges of weight zero.

  A round sends along every edge `e` the row of its target node times the edge's weight, and sums at every node the
  messages of the edges that start there.  Let a second edge list hold the first one's edges first, with the same start
  nodes, target nodes and weights, and after them any number of edges whose weight is zero.  The messages of the old edges
  are unchanged (the product commutes), and every new edge's message is a row times zero, the zero row; so both rounds add
  the same non-zero terms at every node.
-/
import proofs.«113189_j89670327206250_1_alg».proof.Proof.RowOps
import proofs.«113189_j89670327206250_1_alg».proof.Proof.ScatterPad

noncomputable section

namespace Cert.Lgcn

open Idealize.ShloMosaic Idealize.ShloMosaic.ValueIdx

/-- Row-entry `j` of the shorter edge list, as a row-entry of the longer one. -/
abbrev widen {nR nK : Nat} (hle : nR ≤ nK) (j : (Rows nR).Idx) : (Rows nK).Idx :=
  ix2 (⟨(j 0).val, Nat.lt_of_lt_of_le (idx2_lt0 j) hle⟩ : Fin nK) (⟨(j 1).val, idx2_lt1 j⟩ : Fin 64)

theorem widen_injective {nR nK : Nat} (hle : nR ≤ nK) : Function.Injective (widen hle) := by
  intro a b h
  have h0 : (a 0).val = (b 0).val := congrArg (fun i : (Rows nK).Idx => (i 0).val) h
  have h1 : (a 1).val = (b 1).val := congrArg (fun i : (Rows nK).Idx => (i 1).val) h
  funext d
  match d with
  | ⟨0, _⟩ => exact Fin.ext h0
  | ⟨1, _⟩ => exact Fin.ext h1

/-- THE ROUND over the longer edge list is the round over the shorter one. -/
theorem round_pad {nR nK : Nat} (hle : nR ≤ nK)
    (wfGK : GatherDims.WF Tbl (Col nK) (Rows nK) [1] [0] [] [0] [] 1 ![1, 64])
    (wfGR : GatherDims.WF Tbl (Col nR) (Rows nR) [1] [0] [] [0] [] 1 ![1, 64])
    (wfSK : ScatterDims.WF Tbl (Col nK) (Rows nK) [1] [0] [0] 1)
    (wfSR : ScatterDims.WF Tbl (Col nR) (Rows nR) [1] [0] [0] 1)
    (zeros : Tbl.Idx → EReal)
    (sK iK : IVec (Col nK) 32) (sR iR : IVec (Col nR) 32)
    (wK : (Col nK).Idx → EReal) (wR : (Col nR).Idx → EReal)
    (hs : ∀ j : (Rows nR).Idx, sK (colIdx (widen hle j)) = sR (colIdx j))
    (hi : ∀ j : (Rows nR).Idx, iK (colIdx (widen hle j)) = iR (colIdx j))
    (hw : ∀ j : (Rows nR).Idx, wK (colIdx (widen hle j)) = wR (colIdx j))
    (hw0 : ∀ b : (Rows nK).Idx, nR ≤ (b 0).val → wK (colIdx b) = 0)
    (h : Tbl.Idx → EReal) :
    Ideal.hostScatterAdd (rowScatter nK wfSK) zeros sK (fun j => Host.gather (rowGather nK wfGK) h iK j * wK (colIdx j))
      = Ideal.hostScatterAdd (rowScatter nR wfSR) zeros sR (fun j => wR (colIdx j) * Host.gather (rowGather nR wfGR) h iR j) := by
  refine hostScatterAdd_pad _ _ (widen hle) (widen_injective hle) _ _ _ _ ?_ ?_ ?_ zeros
  · intro j
    rw [rowScatter_resultIdx?, rowScatter_resultIdx?, hs]
    rfl
  · intro j
    show Host.gather (rowGather nK wfGK) h iK (widen hle j) * wK (colIdx (widen hle j)) = _
    have e : Host.gather (rowGather nK wfGK) h iK (widen hle j) = Host.gather (rowGather nR wfGR) h iR j := by
      rw [rowGather_apply, rowGather_apply]
      refine congrArg h ?_
      funext d
      match d with
      | ⟨0, _⟩ =>
        refine Fin.ext ?_
        show min (iK (colIdx (widen hle j))).toInt.toNat (300000 - 1) = min (iR (colIdx j)).toInt.toNat (300000 - 1)
        rw [hi]
      | ⟨1, _⟩ => rfl
    rw [e, hw, mul_comm]
  · intro b hb
    have hge : nR ≤ (b 0).val := by
      by_contra hlt
      have hlt' : (b 0).val < nR := Nat.lt_of_not_le hlt
      refine hb (ix2 (⟨(b 0).val, hlt'⟩ : Fin nR) (⟨(b 1).val, idx2_lt1 b⟩ : Fin 64)) ?_
      funext d
      match d with
      | ⟨0, _⟩ => rfl
      | ⟨1, _⟩ => rfl
    show Host.gather (rowGather nK wfGK) h iK b * wK (colIdx b) = 0
    rw [hw0 b hge, mul_zero]

end Cert.Lgcn

end
-- ==== Proof.LayerEq.lean ====
import proofs.«113189_j89670327206250_1_alg».proof.Proof.Rounds
import proofs.«113189_j89670327206250_1_alg».proof.Proof.LayerPad
import Idealize.ShloMosaic.Lib.Pipeline.Value
import Idealize.ShloMosaic.Lib.ValueLayout
import Idealize.ShloMosaic.Lib.KernelVsHost

set_option maxRecDepth 16384

noncomputable section

namespace Cert.Rounds

open Idealize.ShloMosaic Idealize.ShloMosaic.TcCoe Idealize.ShloMosaic.ValueIdx

/-- Two indices of a list agree when their one coordinate does. -/
theorem idx1_ext {n : Nat} (k k' : (⟨1, ![n]⟩ : Shape).Idx) (h : (k 0).val = (k' 0).val) : k = k' := by
  funext a
  match a with
  | ⟨0, _⟩ => exact Fin.ext h

namespace K

open Cert.KernelIdeal Cert.KernelIdeal.Gen

/-- A lengthened node list read at one of the 4000000 old edges is the list there. -/
theorem padI_old (v : IVec S4000000 32) (k : S4014080.Idx) (hk : (k 0).val < 4000000) :
    padI v k = v (ix1 (⟨(k 0).val, hk⟩ : Fin 4000000)) := by
  unfold padI
  refine pad_apply_of_inside _ _ _ v _ _ _ k (ix1 (⟨(k 0).val, hk⟩ : Fin 4000000)) (fun a => ?_)
  match a with
  | ⟨0, _⟩ => show (k 0).val = 0 + (k 0).val * (0 + 1); omega

/-- The lengthened weight column read at one of the 4000000 old edges is the column there. -/
theorem padW_old (w : FVec Ideal S4000000x1 .f32) (k : S4014080x1.Idx) (hk : (k 0).val < 4000000) :
    padW w k = w (ix2 (⟨(k 0).val, hk⟩ : Fin 4000000) (0 : Fin 1)) := by
  unfold padW
  refine pad_apply_of_inside _ _ _ w _ _ _ k (ix2 (⟨(k 0).val, hk⟩ : Fin 4000000) (0 : Fin 1)) (fun a => ?_)
  have h1 : (k 1).val < 1 := idx2_lt1 k
  match a with
  | ⟨0, _⟩ => show (k 0).val = 0 + (k 0).val * (0 + 1); omega
  | ⟨1, _⟩ => show (k 1).val = 0 + 0 * (0 + 1); omega

/-- The lengthened weight column is zero at every added edge: there it holds the integer zero read as a real. -/
theorem padW_new (w : FVec Ideal S4000000x1 .f32) (k : S4014080x1.Idx) (hk : 4000000 ≤ (k 0).val) :
    padW w k = 0 := by
  unfold padW
  refine (pad_apply_of_not_inside _ _ _ w _ _ _ k (0 : Fin 2) ?_).trans ?_
  · intro hc
    have h3 : ((k 0).val - 0) / (0 + 1) < 4000000 := hc.2.2
    omega
  · show (((0#32 : BitVec 32).toInt : ℝ) : EReal) = 0
    simp

/-- The start-node column read at an edge is the list's entry of that edge. -/
theorem srcCol_apply (v : IVec S4014080 32) (i : S4014080x1.Idx) (k : S4014080.Idx) (hk : (k 0).val = (i 0).val) :
    srcCol v i = v k := by
  unfold srcCol
  exact broadcastInDim_apply _ bcast_S4014080_S4014080x1_0 v i k (fun a => match a with
    | ⟨0, _⟩ => by show (k 0).val = if (4014080 : Nat) = 1 then 0 else (i 0).val; rw [if_neg (by decide)]; exact hk)

/-- The row-number column read at an edge: the list's entry of that edge, a negative one counted from the table's end. -/
theorem idxCol_apply (v : IVec S4014080 32) (i : S4014080x1.Idx) (k : S4014080.Idx) (hk : (k 0).val = (i 0).val) :
    idxCol v i = Scalar.select (IntOp.cmpi .slt (v k) 0#32) (IntOp.addi (v k) 300000#32) (v k) := by
  unfold idxCol
  refine (broadcastInDim_apply _ bcast_S4014080_S4014080x1_0 _ i k (fun a => match a with
    | ⟨0, _⟩ => by show (k 0).val = if (4014080 : Nat) = 1 then 0 else (i 0).val; rw [if_neg (by decide)]; exact hk)).trans ?_
  rfl

end K

namespace R

open Cert.ReferenceIdeal Cert.ReferenceIdeal.Gen Cert.ReferenceIdeal.Read

/-- A column of weights spread over the 64 entries of each row, times the rows: entry `(e, k)` is edge `e`'s weight
    times entry `(e, k)` of the rows. -/
theorem scaled_rows (w : FVec Ideal S4000000x1 .f32) (G : FVec Ideal S4000000x64 .f32) :
    mulf (broadcastInDim S4000000x64 ![0, 1] bcast_S4000000x1_S4000000x64_0_1 w) G
      = fun j : (Cert.Lgcn.Rows 4000000).Idx => w (Cert.Lgcn.colIdx j) * G j := by
  funext j
  rw [mulf_apply]
  congr 1
  exact broadcastInDim_apply _ bcast_S4000000x1_S4000000x64_0_1 w j (Cert.Lgcn.colIdx j) (fun a => match a with
    | ⟨0, _⟩ => by show (j 0).val = if (4000000 : Nat) = 1 then 0 else (j 0).val; rw [if_neg (by decide)]
    | ⟨1, _⟩ => by show 0 = if (1 : Nat) = 1 then 0 else (j 1).val; rw [if_pos rfl])

end R

open Cert.Lgcn (Rows colIdx widen)

/-- At every old edge the lengthened start-node column holds the reference's start node. -/
theorem src_agree (x2 : IVec Cert.ReferenceIdeal.S4000000 32) (j : (Rows 4000000).Idx) :
    K.srcCol (K.padI x2) (colIdx (widen (by norm_num : 4000000 ≤ 4014080) j))
      = Cert.ReferenceIdeal.Read.val_main_v34 (F := Ideal) x2 (colIdx j) := by
  have hj : (j 0).val < 4000000 := idx2_lt0 j
  have hK : K.padI x2 (ix1 (⟨(j 0).val, by omega⟩ : Fin 4014080)) = x2 (ix1 (⟨(j 0).val, hj⟩ : Fin 4000000)) :=
    K.padI_old x2 (ix1 (⟨(j 0).val, by omega⟩ : Fin 4014080)) hj
  have hR : Cert.ReferenceIdeal.Read.idx_main_v34 (colIdx j) = ix1 (⟨(j 0).val, hj⟩ : Fin 4000000) := idx1_ext _ _ rfl
  refine (K.srcCol_apply (K.padI x2) _ (ix1 (⟨(j 0).val, by omega⟩ : Fin 4014080)) rfl).trans (hK.trans ?_)
  exact ((Cert.ReferenceIdeal.Read.val_main_v34_apply x2 (colIdx j)).trans (congrArg x2 hR)).symm

/-- At every old edge the lengthened row-number column holds the reference's row number. -/
theorem idx_agree (x3 : IVec Cert.ReferenceIdeal.S4000000 32) (j : (Rows 4000000).Idx) :
    K.idxCol (K.padI x3) (colIdx (widen (by norm_num : 4000000 ≤ 4014080) j))
      = Cert.ReferenceIdeal.Read.val_main_v29 (F := Ideal) x3 (colIdx j) := by
  have hj : (j 0).val < 4000000 := idx2_lt0 j
  have hK : K.padI x3 (ix1 (⟨(j 0).val, by omega⟩ : Fin 4014080)) = x3 (ix1 (⟨(j 0).val, hj⟩ : Fin 4000000)) :=
    K.padI_old x3 (ix1 (⟨(j 0).val, by omega⟩ : Fin 4014080)) hj
  have hR : Cert.ReferenceIdeal.Read.idx_main_v29 (colIdx j) = ix1 (⟨(j 0).val, hj⟩ : Fin 4000000) := idx1_ext _ _ rfl
  refine (K.idxCol_apply (K.padI x3) _ (ix1 (⟨(j 0).val, by omega⟩ : Fin 4014080)) rfl).trans ?_
  rw [hK]
  refine ((Cert.ReferenceIdeal.Read.val_main_v29_apply x3 (colIdx j)).trans ?_).symm
  rw [hR]
  rfl

/-- At every old edge the lengthened weight column holds the edge's weight. -/
theorem wt_agree (w : FVec Ideal Cert.ReferenceIdeal.S4000000x1 .f32) (j : (Rows 4000000).Idx) :
    K.padW w (colIdx (widen (by norm_num : 4000000 ≤ 4014080) j)) = w (colIdx j) :=
  K.padW_old w (colIdx (widen (by norm_num : 4000000 ≤ 4014080) j)) (idx2_lt0 j)

/-- At every added edge the lengthened weight column holds zero. -/
theorem wt_zero (w : FVec Ideal Cert.ReferenceIdeal.S4000000x1 .f32) (b : (Rows 4014080).Idx) (hb : 4000000 ≤ (b 0).val) :
    K.padW w (colIdx b) = 0 :=
  K.padW_new w (colIdx b) hb

/-- The kernel program's round over the lengthened edge lists is the reference's round over the edges as given. -/
theorem round_eq (x2 x3 : IVec Cert.ReferenceIdeal.S4000000 32) (h : FVec Ideal Cert.ReferenceIdeal.S300000x64 .f32) :
    K.round (K.padI x2) (K.padI x3) (K.padW (Cert.ReferenceIdeal.Read.val_main_v23 (F := Ideal) x2 x3)) h = R.round x2 x3 h := by
  have e := Cert.Lgcn.round_pad (nR := 4000000) (nK := 4014080) (by norm_num)
    Cert.KernelIdeal.gather_S300000x64_S4014080x1_S4014080x64_1_0_n_n_0_1_164.wf
    Cert.ReferenceIdeal.gather_S300000x64_S4000000x1_S4000000x64_1_0_n_n_0_1_164.wf
    Cert.KernelIdeal.scatter_S300000x64_S4014080x1_S4014080x64_1_0_0_1.wf
    Cert.ReferenceIdeal.scatter_S300000x64_S4000000x1_S4000000x64_1_0_0_1.wf
    K.zerosT (K.srcCol (K.padI x2)) (K.idxCol (K.padI x3))
    (Cert.ReferenceIdeal.Read.val_main_v34 (F := Ideal) x2) (Cert.ReferenceIdeal.Read.val_main_v29 (F := Ideal) x3)
    (K.padW (Cert.ReferenceIdeal.Read.val_main_v23 (F := Ideal) x2 x3)) (Cert.ReferenceIdeal.Read.val_main_v23 (F := Ideal) x2 x3)
    (src_agree x2) (idx_agree x3) (wt_agree _) (wt_zero _) h
  refine Eq.trans ?_ (e.trans ?_)
  · rfl
  · unfold R.round Cert.ReferenceIdeal.Read.val_main_v31
    rw [R.scaled_rows]
    rfl

end Cert.Rounds

end
-- ==== Proof.RSide.lean ====
import proofs.«113189_j89670327206250_1_alg».proof.Proof.Rounds
import Idealize.ShloMosaic.Lib.ValueIdx
import Idealize.ShloMosaic.PureOps.Ideal.Laws

set_option maxRecDepth 16384

noncomputable section

namespace Cert.Rounds.R

open Idealize.ShloMosaic Idealize.ShloMosaic.TcCoe Idealize.ShloMosaic.ValueIdx
open Cert.ReferenceIdeal Cert.ReferenceIdeal.Gen Cert.ReferenceIdeal.Read

variable (x0 : FVec Ideal S200000x64 .f32) (x1 : FVec Ideal S100000x64 .f32) (x2 x3 : IVec S4000000 32)

/-- The reference's first round starts from the joined table. -/
theorem v35_eq : val_main_v35 (F := Ideal) x0 x1 x2 x3 = round x2 x3 (val_main_v0 (F := Ideal) x0 x1) := rfl
/-- Its second round starts from the first round's result. -/
theorem v48_eq : val_main_v48 (F := Ideal) x0 x1 x2 x3 = round x2 x3 (val_main_v35 (F := Ideal) x0 x1 x2 x3) := rfl
/-- Its third round starts from the second round's result. -/
theorem v61_eq : val_main_v61 (F := Ideal) x0 x1 x2 x3 = round x2 x3 (val_main_v48 (F := Ideal) x0 x1 x2 x3) := rfl

/-- The word of the reference's divisor denotes the real four. -/
theorem word_four : Ideal.ofBits .f32 0x40800000#32 = ((4 : ℝ) : EReal) := by
  simp [Ideal.ofBits, Ideal.ieee, -EReal.coe_mul]; norm_num

/-- The word of the kernel's factor denotes the real one quarter. -/
theorem word_quarter : Ideal.ofBits .f32 0x3E800000#32 = ((1 / 4 : ℝ) : EReal) := by
  simp [Ideal.ofBits, Ideal.ieee, -EReal.coe_mul]; norm_num

/-- The reference's mean: the joined table plus the three rounds' results, divided by four, is that sum times one quarter. -/
theorem v64_eq : val_main_v64 (F := Ideal) x0 x1 x2 x3
    = Cert.Lgcn.quarter (Cert.Lgcn.addArr (Cert.Lgcn.addArr (Cert.Lgcn.addArr (val_main_v0 (F := Ideal) x0 x1)
        (val_main_v35 (F := Ideal) x0 x1 x2 x3)) (val_main_v48 (F := Ideal) x0 x1 x2 x3)) (val_main_v61 (F := Ideal) x0 x1 x2 x3)) := by
  funext i
  rw [val_main_v64_apply, val_main_v63_apply, val_main_cst_14_apply, val_main_v62_apply, val_main_v49_apply, val_main_v36_apply]
  simp only [Cert.Lgcn.quarter, Cert.Lgcn.addArr, Scalar.ofBits, Ideal.hostDivf_def, Ideal.addf_def, Ideal.ofBits_def,
    word_four, word_quarter, Ideal.div_coe (by norm_num : (4 : ℝ) ≠ 0)]

end Cert.Rounds.R

end
-- ==== Proof.KMean.lean ====
/-
  The kernel program's mean table is the reference's.

  Both programs compute `(x + h₁ + h₂ + h₃) / 4` with `x` the joined table and `hₖ₊₁` one round from `hₖ`.  The kernel
  program's round runs over the edge lists lengthened by zero-weight edges and equals the reference's round; its sums are
  the same sums; and its product with one quarter is the reference's quotient by four.
-/
import proofs.«113189_j89670327206250_1_alg».proof.Proof.KChain
import proofs.«113189_j89670327206250_1_alg».proof.Proof.LayerEq
import proofs.«113189_j89670327206250_1_alg».proof.Proof.RSide

set_option maxRecDepth 16384

noncomputable section

namespace Cert.KernelIdeal.KChain

open Idealize.ShloMosaic Idealize.ShloMosaic.TcCoe Idealize.SL.Sem
open Cert.KernelIdeal Cert.KernelIdeal.Gen
open Cert.ReferenceIdeal.Read (val_main_v0 val_main_v35 val_main_v48 val_main_v61 val_main_v64)

variable (m : (ℓ : Loc nD τ sig) → Buf (Elt Ideal) ℓ) (c : Dev nD)

/-- The first round's result, in both programs. -/
theorem H1_eq : H1 m c = val_main_v35 (F := Ideal) (m ((c.tc : Thread nD τ).loc main_arg0)) (m ((c.tc : Thread nD τ).loc main_arg1))
    (m ((c.tc : Thread nD τ).loc main_arg2)) (m ((c.tc : Thread nD τ).loc main_arg3)) := by
  rw [Cert.Rounds.R.v35_eq]
  exact Cert.Rounds.round_eq _ _ _

/-- The second round's result, in both programs. -/
theorem H2_eq : H2 m c = val_main_v48 (F := Ideal) (m ((c.tc : Thread nD τ).loc main_arg0)) (m ((c.tc : Thread nD τ).loc main_arg1))
    (m ((c.tc : Thread nD τ).loc main_arg2)) (m ((c.tc : Thread nD τ).loc main_arg3)) := by
  rw [Cert.Rounds.R.v48_eq, ← H1_eq m c]
  exact Cert.Rounds.round_eq _ _ _

/-- The third round's result, in both programs. -/
theorem H3_eq : H3 m c = val_main_v61 (F := Ideal) (m ((c.tc : Thread nD τ).loc main_arg0)) (m ((c.tc : Thread nD τ).loc main_arg1))
    (m ((c.tc : Thread nD τ).loc main_arg2)) (m ((c.tc : Thread nD τ).loc main_arg3)) := by
  rw [Cert.Rounds.R.v61_eq, ← H2_eq m c]
  exact Cert.Rounds.round_eq _ _ _

/-- THE MEAN TABLE, in both programs. -/
theorem OUT_eq : OUT m c = val_main_v64 (F := Ideal) (m ((c.tc : Thread nD τ).loc main_arg0)) (m ((c.tc : Thread nD τ).loc main_arg1))
    (m ((c.tc : Thread nD τ).loc main_arg2)) (m ((c.tc : Thread nD τ).loc main_arg3)) := by
  rw [Cert.Rounds.R.v64_eq, ← H1_eq m c, ← H2_eq m c, ← H3_eq m c]
  rfl

end Cert.KernelIdeal.KChain

end
-- ==== Proof.lean ====
/- The proof of `Cert.Claim`: three frames, the (empty) idealization ledger, and the equivalence over the extended reals.

   The program averages four node tables: the joined embedding table `x` and three rounds of message passing from it.  One
   round sends along every edge the target node's row times the edge's weight and sums at every node the messages of the
   edges starting there.  The kernel program pads the edge list to 4014080 edges whose extra weights are zero, multiplies
   rows by weights and adds tables inside pallas_calls, and takes the mean as a product with one quarter; the reference
   runs over the 4000000 edges and divides by four.  At the exact instance a row times zero is the zero row, which adds
   nothing to a segment sum, the product commutes, and dividing by 4 is multiplying by 1/4: the results are equal.

   The frames of the two kernel programs are the generated ones; the reference's frame is its generated run with the
   results dropped.  The kernel program's run with its results named reads the last boundary's contents, which the walk
   through @main's boundaries gives as the two slices of the mean table. -/
import proofs.«113189_j89670327206250_1_alg».proof.Defs
import proofs.«113189_j89670327206250_1_alg».proof.Proof.Gen.Kernel
import proofs.«113189_j89670327206250_1_alg».proof.Proof.Gen.Kernel.Skeleton
import proofs.«113189_j89670327206250_1_alg».proof.Proof.Gen.Kernel.Launch
import proofs.«113189_j89670327206250_1_alg».proof.Proof.Gen.Kernel.Points
import proofs.«113189_j89670327206250_1_alg».proof.Proof.Gen.Kernel.Frame
import proofs.«113189_j89670327206250_1_alg».proof.Proof.Gen.KernelIdeal
import proofs.«113189_j89670327206250_1_alg».proof.Proof.Gen.KernelIdeal.Skeleton
import proofs.«113189_j89670327206250_1_alg».proof.Proof.Gen.KernelIdeal.Launch
import proofs.«113189_j89670327206250_1_alg».proof.Proof.Gen.KernelIdeal.Points
import proofs.«113189_j89670327206250_1_alg».proof.Proof.Gen.KernelIdeal.Frame
import proofs.«113189_j89670327206250_1_alg».proof.Proof.Gen.ReferenceIdeal
import proofs.«113189_j89670327206250_1_alg».proof.Proof.Gen.Pre_finite_inputs
import Idealize.ShloMosaic.Adequacy
import Idealize.ShloMosaic.Init
import proofs.«113189_j89670327206250_1_alg».proof.Proof.Gen.ReferenceIdeal.Run
import proofs.«113189_j89670327206250_1_alg».proof.Proof.Gen.ReferenceIdeal.Read
import proofs.«113189_j89670327206250_1_alg».proof.Proof.KRun
import proofs.«113189_j89670327206250_1_alg».proof.Proof.KChain
import proofs.«113189_j89670327206250_1_alg».proof.Proof.KMean

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

open Cert.KernelIdeal Cert.KernelIdeal.Facts₀ in
/-- Both programs end with the user rows and the item rows of one mean table. -/
theorem algebraic : Cert.algebraic_KernelIdeal_ReferenceIdeal := by
  intro m ρ m' ρ' _ hagree
  refine ⟨fun c => extractStridedSlice Cert.KernelIdeal.S200000x64 ![0, 0] (Cert.KernelIdeal.KChain.OUT m c) slices_S300000x64_S200000x64_0_0,
    fun c => extractStridedSlice Cert.KernelIdeal.S100000x64 ![200000, 0] (Cert.KernelIdeal.KChain.OUT m c) slices_S300000x64_S100000x64_200000_0,
    ?_, ?_⟩
  · exact (θ_run Cert.KernelIdeal.defs _ _).mono
      (fun r h c => ⟨(h c).1.trans (Cert.KernelIdeal.KChain.W20_v64 m ρ c), (h c).2.1.trans (Cert.KernelIdeal.KChain.W20_v65 m ρ c), (h c).2.2⟩)
      (Cert.KernelIdeal.Gen.Named.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v65_eq, (hagree c).1, (hagree c).2.1, (hagree c).2.2.1, (hagree c).2.2.2]
      beta_reduce
      rw [Cert.KernelIdeal.KChain.OUT_eq m c]
      rfl
    · rw [Cert.ReferenceIdeal.Read.val_main_v66_eq, (hagree c).1, (hagree c).2.1, (hagree c).2.2.1, (hagree c).2.2.2]
      beta_reduce
      rw [Cert.KernelIdeal.KChain.OUT_eq m c]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
